-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg8 : FVec F S64x64 .f32) (main_arg9 : FVec F S64 .f32) (main_arg10 : FVec F S64x10 .f32) (main_arg11 : FVec F S10 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x10 .f32 := Host.absf main_arg10
  let main_cst_16 : FVec F S_ .f32 := constant S_ .f32 0x7F800000#32
  let main_v45 : FVec F S64x10 .f32 := broadcastInDim S64x10 ![] bcast_S_S64x10 main_cst_16
  let main_v46 : IVec S64x10 1 := cmpf .olt main_v44 main_v45
  let main_c_17 : IVec S_ 1 := constantI S_ 1 1#1
  let main_v47 : IVec S_ 1 := (fun x v => Host.reduce IntOp.andi x v reducesTo_S64x10_S_d0_1 h_S_) main_v46 main_c_17
  let main_v48 : IVec S_ 1 := andi main_v43 main_v47
  let main_v49 : FVec F S10 .f32 := Host.absf main_arg11
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg5 : FVec F S64x64 .f32) (main_arg6 : FVec F S64x64 .f32) (main_arg7 : FVec F S64 .f32) (main_arg8 : FVec F S64x64 .f32) (main_arg9 : FVec F S64 .f32) (main_arg10 : FVec F S64x10 .f32) (main_arg11 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : IVec S2x1000000 32) (main_arg2 : FVec F S64x64 .f32) (main_arg3 : FVec F S64x64 .f32) (main_arg4 : FVec F S64 .f32) (main_arg5 : FVec F S64x64 .f32) (main_arg6 : FVec F S64x64 .f32) (main_arg7 : FVec F S64 .f32) (main_arg8 : FVec F S64x64 .f32) (main_arg9 : FVec F S64 .f32) (main_arg10 : FVec F S64x10 .f32) (main_arg11 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S1x64 : Shape := ⟨2, ![1, 64]⟩
abbrev S5000x64 : Shape := ⟨2, ![5000, 64]⟩
abbrev S1x10 : Shape := ⟨2, ![1, 10]⟩
abbrev S100000x10 : Shape := ⟨2, ![100000, 10]⟩
abbrev S5000x10 : Shape := ⟨2, ![5000, 10]⟩
abbrev S5000 : Shape := ⟨1, ![5000]⟩
abbrev S5000x1 : Shape := ⟨2, ![5000, 1]⟩

abbrev nBuf : Space → Nat
  | .hbm => 72
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x10, .f32⟩
  | .hbm, ⟨11, _⟩ => ⟨S10, .f32⟩
  | .hbm, ⟨12, _⟩ => ⟨S1x1000000, .i32⟩
  | .hbm, ⟨13, _⟩ => ⟨S1000000, .i32⟩
  | .hbm, ⟨14, _⟩ => ⟨S1x1000000, .i32⟩
  | .hbm, ⟨15, _⟩ => ⟨S1000000, .i32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x64, .f32⟩
  | .hbm, ⟨25, _⟩ => ⟨S_, .f32⟩
  | .hbm, ⟨26, _⟩ => ⟨S100000x64, .f32⟩
  | .hbm, ⟨27, _⟩ => ⟨S1000000x1, .i32⟩
  | .hbm, ⟨28, _⟩ => ⟨S100000x64, .f32⟩
  | .hbm, ⟨29, _⟩ => ⟨S_, .f32⟩
  | .hbm, ⟨30, _⟩ => ⟨S1000000, .f32⟩
  | .hbm, ⟨31, _⟩ => ⟨S_, .f32⟩
  | .hbm, ⟨32, _⟩ => ⟨S100000, .f32⟩
  | .hbm, ⟨33, _⟩ => ⟨S1000000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S_, .i32⟩
  | .hbm, ⟨44, _⟩ => ⟨S1000000, .i32⟩
  | .hbm, ⟨45, _⟩ => ⟨S1000000, .i1⟩
  | .hbm, ⟨46, _⟩ => ⟨S_, .i32⟩
  | .hbm, ⟨47, _⟩ => ⟨S1000000, .i32⟩
  | .hbm, ⟨48, _⟩ => ⟨S1000000, .i32⟩
  | .hbm, ⟨49, _⟩ => ⟨S1000000, .i32⟩
  | .hbm, ⟨50, _⟩ => ⟨S1000000x1, .i32⟩
  | .hbm, ⟨51, _⟩ => ⟨S1000000x64, .f32⟩
  | .hbm, ⟨52, _⟩ => ⟨S_, .f32⟩
  | .hbm, ⟨53, _⟩ => ⟨S100000x64, .f32⟩
  | .hbm, ⟨54, _⟩ => ⟨S1000000x1, .i32⟩
  | .hbm, ⟨55, _⟩ => ⟨S100000x64, .f32⟩
  | .hbm, ⟨56, _⟩ => ⟨S_, .f32⟩
  | .hbm, ⟨57, _⟩ => ⟨S1000000, .f32⟩
  | .hbm, ⟨58, _⟩ => ⟨S_, .f32⟩
  | .hbm, ⟨59, _⟩ => ⟨S100000, .f32⟩
  | .hbm, ⟨60, _⟩ => ⟨S1000000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x64, .f32⟩
  | .hbm, ⟨67, _⟩ => ⟨S100000x64, .f32⟩
  | .hbm, ⟨68, _⟩ => ⟨S1x64, .f32⟩
  | .hbm, ⟨69, _⟩ => ⟨S1x64, .f32⟩
  | .hbm, ⟨70, _⟩ => ⟨S1x10, .f32⟩
  | .hbm, ⟨71, _⟩ => ⟨S100000x10, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S64x10, .f32⟩
  | .local _ .vmem, ⟨19, _⟩ => ⟨S1x10, .f32⟩
  | .local _ .vmem, ⟨20, _⟩ => ⟨S5000x10, .f32⟩
  | .local _ .vmem, ⟨21, _⟩ => ⟨S5000x10, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x10 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x10 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x10 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S10_S1x10 : S10.ShapeCasts S1x10
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  reduces_S5000x10_S5000 : S5000x10.Reduces [1] S5000
  shapeCasts_S5000_S5000x1 : S5000.ShapeCasts S5000x1
  broadcasts_S5000x1_S5000x10 : S5000x1.Broadcasts S5000x10
  inb_S5000x10_S5000x10_0_0 : ∀ a, (![0, 0] : Fin 2 → Nat) a + S5000x10.size a ≤ S5000x10.size a
  h_S5000x10 : 0 < S5000x10.numel
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S5000x64_S64x64_S5000x64_1_0_0_1_n_n_wf : DotDims.WF S5000x64 S64x64 S5000x64 [1] [0] [0] [1] [] []
  dot_S5000x64_S64x10_S5000x10_1_0_0_1_n_n_wf : DotDims.WF S5000x64 S64x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x10.size a ≤ S64x10.size a
  hwx1_7 : ∀ i : grid1.Coords, EltTy.bits .f32 = 32 ∨ (Rect.block (s := S64x10) S64x10.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x10.size a ≤ S1x10.size a
  hwx1_8 : ∀ i : grid1.Coords, EltTy.bits .f32 = 32 ∨ (Rect.block (s := S1x10) S1x10.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x10.size a ≤ S100000x10.size a
  hwx1_9 : ∀ i : grid1.Coords, EltTy.bits .f32 = 32 ∨ (Rect.block (s := S100000x10) S5000x10.size (cc1_transform_9 i) (hinb1_9 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x10_S5000x10_1_0_0_1_n_n : DotDims S5000x64 S64x10 S5000x10 where
  lhsContracting := [1]
  rhsContracting := [0]
  lhsNonContracting := [0]
  rhsNonContracting := [1]
  lhsBatch := []
  rhsBatch := []
  wf := dot_S5000x64_S64x10_S5000x10_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S64x10.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v46) S1x10.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v47) S5000x10.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S1x64 : Shape := ⟨2, ![1, 64]⟩
abbrev S100000x10 : Shape := ⟨2, ![100000, 10]⟩
abbrev S1x10 : Shape := ⟨2, ![1, 10]⟩

abbrev nBuf : Space → Nat
  | .hbm => 110
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x10, .f32⟩
  | .hbm, ⟨11, _⟩ => ⟨S10, .f32⟩
  | .hbm, ⟨12, _⟩ => ⟨S1x1000000, .i32⟩
  | .hbm, ⟨13, _⟩ => ⟨S1000000, .i32⟩
  | .hbm, ⟨14, _⟩ => ⟨S1x1000000, .i32⟩
  | .hbm, ⟨15, _⟩ => ⟨S1000000, .i32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x64, .f32⟩
  | .hbm, ⟨25, _⟩ => ⟨S_, .f32⟩
  | .hbm, ⟨26, _⟩ => ⟨S100000x64, .f32⟩
  | .hbm, ⟨27, _⟩ => ⟨S1000000x1, .i32⟩
  | .hbm, ⟨28, _⟩ => ⟨S100000x64, .f32⟩
  | .hbm, ⟨29, _⟩ => ⟨S_, .f32⟩
  | .hbm, ⟨30, _⟩ => ⟨S1000000, .f32⟩
  | .hbm, ⟨31, _⟩ => ⟨S_, .f32⟩
  | .hbm, ⟨32, _⟩ => ⟨S100000, .f32⟩
  | .hbm, ⟨33, _⟩ => ⟨S1000000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S_, .i32⟩
  | .hbm, ⟨51, _⟩ => ⟨S1000000, .i32⟩
  | .hbm, ⟨52, _⟩ => ⟨S1000000, .i1⟩
  | .hbm, ⟨53, _⟩ => ⟨S_, .i32⟩
  | .hbm, ⟨54, _⟩ => ⟨S1000000, .i32⟩
  | .hbm, ⟨55, _⟩ => ⟨S1000000, .i32⟩
  | .hbm, ⟨56, _⟩ => ⟨S1000000, .i32⟩
  | .hbm, ⟨57, _⟩ => ⟨S1000000x1, .i32⟩
  | .hbm, ⟨58, _⟩ => ⟨S1000000x64, .f32⟩
  | .hbm, ⟨59, _⟩ => ⟨S_, .f32⟩
  | .hbm, ⟨60, _⟩ => ⟨S100000x64, .f32⟩
  | .hbm, ⟨61, _⟩ => ⟨S1000000x1, .i32⟩
  | .hbm, ⟨62, _⟩ => ⟨S100000x64, .f32⟩
  | .hbm, ⟨63, _⟩ => ⟨S_, .f32⟩
  | .hbm, ⟨64, _⟩ => ⟨S1000000, .f32⟩
  | .hbm, ⟨65, _⟩ => ⟨S_, .f32⟩
  | .hbm, ⟨66, _⟩ => ⟨S100000, .f32⟩
  | .hbm, ⟨67, _⟩ => ⟨S1000000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S100000x64, .f32⟩
  | .hbm, ⟨83, _⟩ => ⟨S100000x64, .f32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S_, .f32⟩
  | .hbm, ⟨89, _⟩ => ⟨S100000x64, .f32⟩
  | .hbm, ⟨90, _⟩ => ⟨S100000x64, .f32⟩
  | .hbm, ⟨91, _⟩ => ⟨S100000x10, .f32⟩
  | .hbm, ⟨92, _⟩ => ⟨S1x10, .f32⟩
  | .hbm, ⟨93, _⟩ => ⟨S100000x10, .f32⟩
  | .hbm, ⟨94, _⟩ => ⟨S100000x10, .f32⟩
  | .hbm, ⟨95, _⟩ => ⟨S_, .f32⟩
  | .hbm, ⟨96, _⟩ => ⟨S100000, .f32⟩
  | .hbm, ⟨97, _⟩ => ⟨S_, .f32⟩
  | .hbm, ⟨98, _⟩ => ⟨S100000, .f32⟩
  | .hbm, ⟨99, _⟩ => ⟨S100000, .f32⟩
  | .hbm, ⟨100, _⟩ => ⟨S100000x1, .f32⟩
  | .hbm, ⟨101, _⟩ => ⟨S100000x10, .f32⟩
  | .hbm, ⟨102, _⟩ => ⟨S100000x10, .f32⟩
  | .hbm, ⟨103, _⟩ => ⟨S100000x10, .f32⟩
  | .hbm, ⟨104, _⟩ => ⟨S_, .f32⟩
  | .hbm, ⟨105, _⟩ => ⟨S100000, .f32⟩
  | .hbm, ⟨106, _⟩ => ⟨S100000x1, .f32⟩
  | .hbm, ⟨107, _⟩ => ⟨S100000x1, .f32⟩
  | .hbm, ⟨108, _⟩ => ⟨S100000x10, .f32⟩
  | .hbm, ⟨109, _⟩ => ⟨S100000x10, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_cst : Ref sig .tc := ⟨.hbm, 47, rfl⟩
abbrev main_call0_v0 : Ref sig .tc := ⟨.hbm, 48, rfl⟩
abbrev main_v29 : Ref sig .tc := ⟨.hbm, 49, rfl⟩
abbrev main_c_4 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call1_cst : Ref sig .tc := ⟨.hbm, 81, rfl⟩
abbrev main_call1_v0 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_call2_cst : Ref sig .tc := ⟨.hbm, 88, rfl⟩
abbrev main_call2_v0 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_call3_cst : Ref sig .tc := ⟨.hbm, 95, rfl⟩
abbrev main_call3_v0 : Ref sig .tc := ⟨.hbm, 96, rfl⟩
abbrev main_call3_cst_0 : Ref sig .tc := ⟨.hbm, 97, rfl⟩
abbrev main_call3_v1 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_v5 : Ref sig .tc := ⟨.hbm, 102, rfl⟩
abbrev main_call3_v6 : Ref sig .tc := ⟨.hbm, 103, rfl⟩
abbrev main_call3_cst_1 : Ref sig .tc := ⟨.hbm, 104, rfl⟩
abbrev main_call3_v7 : Ref sig .tc := ⟨.hbm, 105, rfl⟩
abbrev main_call3_v8 : Ref sig .tc := ⟨.hbm, 106, rfl⟩
abbrev main_call3_v9 : Ref sig .tc := ⟨.hbm, 107, rfl⟩
abbrev main_call3_v10 : Ref sig .tc := ⟨.hbm, 108, rfl⟩
abbrev main_v65 : Ref sig .tc := ⟨.hbm, 109, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S100000x1_S100000x10_0_1 : S100000x1.BroadcastsInDim S100000x10 (![0, 1] : Fin 2 → Fin S100000x10.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x64_S100000x64_1_0_0_1_n_n_wf : DotDims.WF S100000x64 S64x64 S100000x64 [1] [0] [0] [1] [] []
  dot_S100000x64_S64x10_S100000x10_1_0_0_1_n_n_wf : DotDims.WF S100000x64 S64x10 S100000x10 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x10_S100000x10_1_0_0_1_n_n : DotDims S100000x64 S64x10 S100000x10 where
  lhsContracting := [1]
  rhsContracting := [0]
  lhsNonContracting := [0]
  rhsNonContracting := [1]
  lhsBatch := []
  rhsBatch := []
  wf := dot_S100000x64_S64x10_S100000x10_1_0_0_1_n_n_wf

class Facts : Prop extends Facts₀ where

variable [Facts]
-- ==== Proof.Spec.lean ====
/-
  The mathematics both programs compute, as functions of whole arrays over the extended reals.

  A node's features are a row of 64 numbers. One graph-convolution layer sends the row `a` of aggregated neighbour
  features and the node's own row `x` to `max (a·Wl + x·Wr + b) 0`, entry by entry. The classifier head applies a
  second such layer, then a dense layer with the same clamp at zero, then a dense layer into 10 classes, and
  finally subtracts from each class score the row's maximum and the logarithm of the sum of the exponentials of
  the shifted scores. Every stage acts on one row at a time, so a function of whole arrays is "the row function
  applied to row `i 0`, read at column `i 1`"; this makes the value of a block of rows the same function of the
  corresponding blocks of the inputs.
-/
import Idealize.ShloMosaic.Lib.ValueIdx
import Idealize.ShloMosaic.PureOps.Ideal

noncomputable section

namespace GraphHead

open Idealize.ShloMosaic Idealize.ShloMosaic.ValueIdx

/-- A matrix of extended reals with `r` rows and `c` columns, indexed as the programs index a rank-2 array. -/
abbrev Mat (r c : Nat) : Type := (⟨2, ![r, c]⟩ : Shape).Idx → EReal

/-- Row `p` of a matrix. -/
def row {r c : Nat} (A : Mat r c) (p : Fin r) : Fin c → EReal := fun k => A (ix2 p k)

/-- The floor of the clamp: the number the all-zero word denotes. -/
abbrev floor0 : EReal := Ideal.ofBits .f32 0x00000000#32

/-- The start of a running maximum: the number the word of minus infinity denotes. -/
abbrev negInf : EReal := Ideal.ofBits .f32 0xFF800000#32

/-- A row times a matrix plus a bias row: entry `j` is `∑ k, v k · W[k, j] + b[0, j]`. -/
def denseRow {K N : Nat} (W : Mat K N) (b : Mat 1 N) (v : Fin K → EReal) : Fin N → EReal :=
  fun j => (∑ k : Fin K, v k * W (ix2 k j)) + b (ix2 0 j)

/-- One graph-convolution layer on a row: `max (a·Wl + x·Wr + b) 0`. -/
def sageRow (wl wr : Mat 64 64) (b : Mat 1 64) (a x : Fin 64 → EReal) : Fin 64 → EReal :=
  fun j => max (((∑ k : Fin 64, a k * wl (ix2 k j)) + (∑ k : Fin 64, x k * wr (ix2 k j))) + b (ix2 0 j)) floor0

/-- The maximum of a row of 10 scores, folded from minus infinity. -/
def rowMax (v : Fin 10 → EReal) : EReal := (Finset.univ : Finset (Fin 10)).fold max negInf v

/-- The shifted scores `v j - max v`. -/
def shifted (v : Fin 10 → EReal) : Fin 10 → EReal := fun j => v j - rowMax v

/-- Log-softmax of a row of 10 scores: the shifted score minus the logarithm of the sum of exponentials of the shifted scores. -/
def logSoftmaxRow (v : Fin 10 → EReal) : Fin 10 → EReal :=
  fun j => shifted v j - Ideal.log (∑ q : Fin 10, Ideal.exp (shifted v q))

/-- The classifier head on a row: second layer, clamped dense layer, dense layer into the classes, log-softmax. -/
def headRow (wl wr : Mat 64 64) (b : Mat 1 64) (w1 : Mat 64 64) (b1 : Mat 1 64) (w2 : Mat 64 10) (b2 : Mat 1 10)
    (a h : Fin 64 → EReal) : Fin 10 → EReal :=
  logSoftmaxRow (denseRow w2 b2 (fun j => max (denseRow w1 b1 (sageRow wl wr b a h) j) floor0))

/-- The layer on whole arrays of `n` rows. -/
def sage (n : Nat) (a x : Mat n 64) (wl wr : Mat 64 64) (b : Mat 1 64) : Mat n 64 :=
  fun i => sageRow wl wr b (row a (i 0)) (row x (i 0)) (i 1)

/-- The head on whole arrays of `n` rows. -/
def head (n : Nat) (a h : Mat n 64) (wl wr : Mat 64 64) (b : Mat 1 64) (w1 : Mat 64 64) (b1 : Mat 1 64)
    (w2 : Mat 64 10) (b2 : Mat 1 10) : Mat n 10 :=
  fun i => headRow wl wr b w1 b1 w2 b2 (row a (i 0)) (row h (i 0)) (i 1)

/-- A bias vector of length `N` laid out as a matrix of one row. -/
def biasRow {N : Nat} (v : (⟨1, ![N]⟩ : Shape).Idx → EReal) : Mat 1 N := fun i => v (ix1 (i 1))

theorem sage_apply (n : Nat) (a x : Mat n 64) (wl wr : Mat 64 64) (b : Mat 1 64) (p : Fin n) (j : Fin 64) :
    sage n a x wl wr b (ix2 p j) = sageRow wl wr b (row a p) (row x p) j := rfl

theorem head_apply (n : Nat) (a h : Mat n 64) (wl wr : Mat 64 64) (b : Mat 1 64) (w1 : Mat 64 64) (b1 : Mat 1 64)
    (w2 : Mat 64 10) (b2 : Mat 1 10) (p : Fin n) (j : Fin 10) :
    head n a h wl wr b w1 b1 w2 b2 (ix2 p j) = headRow wl wr b w1 b1 w2 b2 (row a p) (row h p) j := rfl

end GraphHead

end
-- ==== Proof.KGlue.lean ====
/-
  The host side of the kernel program, read as values. Before each region the host computes, from a feature array
  and the edge list, the mean of the features over each node's incoming edges: the source rows are gathered (a
  negative source index wraps around once), added up at the destination rows from zero, and divided by the
  in-degree clamped below at one. It also lays each bias vector out as a matrix of one row. The first region's
  output array feeds the second aggregation and the second region; the argument arrays stay as launched. Put
  together: the result buffer ends at the classifier head of (the aggregation of the first layer's output, the
  first layer's output), the first layer's output being the layer of (the aggregation of the node features, the
  node features).
-/
import proofs.«425800_j86053964743053_4_alg».proof.Proof.Gen.KernelIdeal.Frame
import proofs.«425800_j86053964743053_4_alg».proof.Proof.Spec
import Idealize.ShloMosaic.Lib.StableHlo.Run
import Idealize.ShloMosaic.Lib.ValueLayout

set_option maxRecDepth 16384

noncomputable section

namespace Cert.KernelIdeal.Glue

open Cert.KernelIdeal Cert.KernelIdeal.Gen Idealize.ShloMosaic Idealize.ShloMosaic.TcCoe Idealize.SL.Sem Idealize.ShloMosaic.StableHlo
open Idealize.ShloMosaic.ValueIdx

section Chain

variable {F : FTy → Type} [FloatOps F]

/-- The source node of each edge: row 0 of the edge list. -/
def srcOf (e : (⟨S2x1000000, .i32⟩ : BufTy).Contents (Elt F)) : (⟨S1000000, .i32⟩ : BufTy).Contents (Elt F) :=
  shapeCast _ (extractStridedSlice S1x1000000 ![0, 0] e slices_S2x1000000_S1x1000000_0_0) shapeCasts_S1x1000000_S1000000

/-- The destination node of each edge: row 1 of the edge list. -/
def dstOf (e : (⟨S2x1000000, .i32⟩ : BufTy).Contents (Elt F)) : (⟨S1000000, .i32⟩ : BufTy).Contents (Elt F) :=
  shapeCast _ (extractStridedSlice S1x1000000 ![1, 0] e slices_S2x1000000_S1x1000000_1_0) shapeCasts_S1x1000000_S1000000

/-- The mean of the feature rows over each node's incoming edges, from the edges' source and destination nodes. -/
def aggOf (feat : (⟨S100000x64, .f32⟩ : BufTy).Contents (Elt F)) (src dst : (⟨S1000000, .i32⟩ : BufTy).Contents (Elt F)) :
    (⟨S100000x64, .f32⟩ : BufTy).Contents (Elt F) :=
  Host.divf
    (Host.scatterAdd scatter_S100000x64_S1000000x1_S1000000x64_1_0_0_1
      (broadcastInDim S100000x64 ![] bcast_S_S100000x64 (constant S_ .f32 0x00000000#32))
      (broadcastInDim S1000000x1 ![0] bcast_S1000000_S1000000x1_0 dst)
      (Host.gather gather_S100000x64_S1000000x1_S1000000x64_1_0_n_n_0_1_164 feat
        (broadcastInDim S1000000x1 ![0] bcast_S1000000_S1000000x1_0
          (select (cmpi .slt src (broadcastInDim S1000000 ![] bcast_S_S1000000 (constantI S_ 32 0#32)))
            (addi src (broadcastInDim S1000000 ![] bcast_S_S1000000 (constantI S_ 32 100000#32)))
            src))))
    (broadcastInDim S100000x64 ![0, 1] bcast_S100000x1_S100000x64_0_1
      (broadcastInDim S100000x1 ![0] bcast_S100000_S100000x1_0
        (maximumf
          (Host.scatterAdd scatter_S100000_S1000000x1_S1000000_n_0_0_1
            (broadcastInDim S100000 ![] bcast_S_S100000 (constant S_ .f32 0x00000000#32))
            (broadcastInDim S1000000x1 ![0] bcast_S1000000_S1000000x1_0 dst)
            (broadcastInDim S1000000 ![] bcast_S_S1000000 (constant S_ .f32 0x3F800000#32)))
          (broadcastInDim S100000 ![] bcast_S_S100000 (constant S_ .f32 0x3F800000#32)))))

/-- The same from the edge list. -/
def agg (feat : (⟨S100000x64, .f32⟩ : BufTy).Contents (Elt F)) (e : (⟨S2x1000000, .i32⟩ : BufTy).Contents (Elt F)) :
    (⟨S100000x64, .f32⟩ : BufTy).Contents (Elt F) :=
  aggOf feat (srcOf e) (dstOf e)

variable (m : (ℓ : Loc nD τ sig) → Buf (Elt F) ℓ) (ρ : Dev nD → PrngReg)

/-! ## What region 0 is entered with -/

theorem entry0_agg (c : Dev nD) :
    V1 m ρ c main_v22 = agg (m ((c : Thread nD τ).loc main_arg0)) (m ((c : Thread nD τ).loc main_arg1)) := by
  show StableHlo.after hostOps0 (W0 m ρ c) (Proc.devRef .tc main_v22) = _
  after_results_simp
  rfl

theorem entry0_bias (c : Dev nD) :
    V1 m ρ c main_v23 = shapeCast _ (m ((c : Thread nD τ).loc main_arg4)) shapeCasts_S64_S1x64 := by
  show StableHlo.after hostOps0 (W0 m ρ c) (Proc.devRef .tc main_v23) = _
  after_results_simp
  rfl

theorem entry0_arg0 (c : Dev nD) : V1 m ρ c main_arg0 = m ((c : Thread nD τ).loc main_arg0) := by
  show StableHlo.after hostOps0 (W0 m ρ c) (Proc.devRef .tc main_arg0) = _
  after_results_simp

theorem entry0_arg2 (c : Dev nD) : V1 m ρ c main_arg2 = m ((c : Thread nD τ).loc main_arg2) := by
  show StableHlo.after hostOps0 (W0 m ρ c) (Proc.devRef .tc main_arg2) = _
  after_results_simp

theorem entry0_arg3 (c : Dev nD) : V1 m ρ c main_arg3 = m ((c : Thread nD τ).loc main_arg3) := by
  show StableHlo.after hostOps0 (W0 m ρ c) (Proc.devRef .tc main_arg3) = _
  after_results_simp

/-! ## What the first host stretch leaves for the second: the edges' nodes and the later arguments -/

theorem mid_src (c : Dev nD) : W2 m ρ c (Proc.devRef .tc main_v1) = srcOf (m ((c : Thread nD τ).loc main_arg1)) :=
  (W2_of_ne m ρ c main_v1 (by decide)).trans (by
    show StableHlo.after hostOps0 (W0 m ρ c) (Proc.devRef .tc main_v1) = _
    after_results_simp
    rfl)

theorem mid_dst (c : Dev nD) : W2 m ρ c (Proc.devRef .tc main_v3) = dstOf (m ((c : Thread nD τ).loc main_arg1)) :=
  (W2_of_ne m ρ c main_v3 (by decide)).trans (by
    show StableHlo.after hostOps0 (W0 m ρ c) (Proc.devRef .tc main_v3) = _
    after_results_simp
    rfl)

/-- An argument no host operation and no region writes is, at the second stretch's start, as launched. -/
theorem mid_arg (c : Dev nD) (b : Ref sig .tc) (hb : ∀ w, Pipeline.arrRef spec0 w ≠ b)
    (h0 : StableHlo.after hostOps0 (W0 m ρ c) (Proc.devRef .tc b) = m ((c : Thread nD τ).loc b)) :
    W2 m ρ c (Proc.devRef .tc b) = m ((c : Thread nD τ).loc b) :=
  (W2_of_ne m ρ c b hb).trans h0

/-! ## What region 1 is entered with -/

theorem entry1_agg (c : Dev nD) :
    V3 m ρ c main_v43 = agg (W2 m ρ c (Proc.devRef .tc main_v24)) (m ((c : Thread nD τ).loc main_arg1)) := by
  show StableHlo.after hostOps1 (W2 m ρ c) (Proc.devRef .tc main_v43) = _
  after_results_simp
  rw [mid_src, mid_dst]
  rfl

theorem entry1_h (c : Dev nD) : V3 m ρ c main_v24 = W2 m ρ c (Proc.devRef .tc main_v24) := by
  show StableHlo.after hostOps1 (W2 m ρ c) (Proc.devRef .tc main_v24) = _
  after_results_simp

theorem entry1_arg5 (c : Dev nD) : V3 m ρ c main_arg5 = m ((c : Thread nD τ).loc main_arg5) := by
  show StableHlo.after hostOps1 (W2 m ρ c) (Proc.devRef .tc main_arg5) = _
  after_results_simp
  exact mid_arg m ρ c main_arg5 (by decide) (by after_results_simp)

theorem entry1_arg6 (c : Dev nD) : V3 m ρ c main_arg6 = m ((c : Thread nD τ).loc main_arg6) := by
  show StableHlo.after hostOps1 (W2 m ρ c) (Proc.devRef .tc main_arg6) = _
  after_results_simp
  exact mid_arg m ρ c main_arg6 (by decide) (by after_results_simp)

theorem entry1_arg8 (c : Dev nD) : V3 m ρ c main_arg8 = m ((c : Thread nD τ).loc main_arg8) := by
  show StableHlo.after hostOps1 (W2 m ρ c) (Proc.devRef .tc main_arg8) = _
  after_results_simp
  exact mid_arg m ρ c main_arg8 (by decide) (by after_results_simp)

theorem entry1_arg10 (c : Dev nD) : V3 m ρ c main_arg10 = m ((c : Thread nD τ).loc main_arg10) := by
  show StableHlo.after hostOps1 (W2 m ρ c) (Proc.devRef .tc main_arg10) = _
  after_results_simp
  exact mid_arg m ρ c main_arg10 (by decide) (by after_results_simp)

theorem entry1_bias7 (c : Dev nD) :
    V3 m ρ c main_v44 = shapeCast _ (m ((c : Thread nD τ).loc main_arg7)) shapeCasts_S64_S1x64 := by
  show StableHlo.after hostOps1 (W2 m ρ c) (Proc.devRef .tc main_v44) = _
  after_results_simp
  rw [mid_arg m ρ c main_arg7 (by decide) (by after_results_simp)]
  rfl

theorem entry1_bias9 (c : Dev nD) :
    V3 m ρ c main_v45 = shapeCast _ (m ((c : Thread nD τ).loc main_arg9)) shapeCasts_S64_S1x64 := by
  show StableHlo.after hostOps1 (W2 m ρ c) (Proc.devRef .tc main_v45) = _
  after_results_simp
  rw [mid_arg m ρ c main_arg9 (by decide) (by after_results_simp)]
  rfl

theorem entry1_bias11 (c : Dev nD) :
    V3 m ρ c main_v46 = shapeCast _ (m ((c : Thread nD τ).loc main_arg11)) shapeCasts_S10_S1x10 := by
  show StableHlo.after hostOps1 (W2 m ρ c) (Proc.devRef .tc main_v46) = _
  after_results_simp
  rw [mid_arg m ρ c main_arg11 (by decide) (by after_results_simp)]
  rfl

end Chain

/-! ## The result, at the exact values -/

/-- A bias vector reshaped to one row is the vector laid out as a row. -/
theorem bias_row {N : Nat} (v : (⟨1, ![N]⟩ : Shape).Idx → EReal) (h : (⟨1, ![N]⟩ : Shape).ShapeCasts ⟨2, ![1, N]⟩) :
    shapeCast ⟨2, ![1, N]⟩ v h = GraphHead.biasRow v := by
  funext i
  obtain ⟨u, j, rfl⟩ : ∃ (u : Fin 1) (j : Fin N), i = ix2 u j := ⟨i 0, i 1, eq_ix2 i⟩
  exact shapeCast_a_1a_apply v h u j

variable (m : (ℓ : Loc nD τ sig) → Buf (Elt Ideal) ℓ) (ρ : Dev nD → PrngReg)

/-- The first layer's output, as the kernel program computes it from the launch memory. -/
def hidden (c : Dev nD) : GraphHead.Mat 100000 64 :=
  GraphHead.sage 100000 (agg (m ((c : Thread nD τ).loc main_arg0)) (m ((c : Thread nD τ).loc main_arg1)))
    (m ((c : Thread nD τ).loc main_arg0)) (m ((c : Thread nD τ).loc main_arg2)) (m ((c : Thread nD τ).loc main_arg3))
    (GraphHead.biasRow (m ((c : Thread nD τ).loc main_arg4)))

/-- The program's result, as one function of the launch memory. -/
def result (c : Dev nD) : GraphHead.Mat 100000 10 :=
  GraphHead.head 100000 (agg (hidden m c) (m ((c : Thread nD τ).loc main_arg1))) (hidden m c)
    (m ((c : Thread nD τ).loc main_arg5)) (m ((c : Thread nD τ).loc main_arg6)) (GraphHead.biasRow (m ((c : Thread nD τ).loc main_arg7)))
    (m ((c : Thread nD τ).loc main_arg8)) (GraphHead.biasRow (m ((c : Thread nD τ).loc main_arg9)))
    (m ((c : Thread nD τ).loc main_arg10)) (GraphHead.biasRow (m ((c : Thread nD τ).loc main_arg11)))

/-- After the run the result buffer holds `result`, given what each region leaves in its output array as a
    function of the contents it is entered with. -/
theorem result_eq
    (final0 : ∀ (V : (c : Dev nD) → (b : Ref sig .tc) → Buf (Elt Ideal) ((c : Thread nD τ).loc b)) (c : Dev nD),
      (dat0 (F := Ideal) V c).arrAt 5 cfg0.N
        = GraphHead.sage 100000 (V c main_v22) (V c main_arg0) (V c main_arg2) (V c main_arg3) (V c main_v23))
    (final1 : ∀ (V : (c : Dev nD) → (b : Ref sig .tc) → Buf (Elt Ideal) ((c : Thread nD τ).loc b)) (c : Dev nD),
      (dat1 (F := Ideal) V c).arrAt 9 cfg1.N
        = GraphHead.head 100000 (V c main_v43) (V c main_v24) (V c main_arg5) (V c main_arg6) (V c main_v44)
            (V c main_arg8) (V c main_v45) (V c main_arg10) (V c main_v46))
    (c : Dev nD) :
    W4 m ρ c (Proc.devRef .tc main_v47) = result m c := by
  have hH : W2 m ρ c (Proc.devRef .tc main_v24) = hidden m c := by
    refine (W2_arr m ρ c 5).trans ?_
    rw [final0 (V1 m ρ) c, entry0_agg, entry0_arg0, entry0_arg2, entry0_arg3, entry0_bias, bias_row]
    rfl
  refine (W4_arr m ρ c 9).trans ?_
  rw [final1 (V3 m ρ) c, entry1_agg, entry1_h, hH, entry1_arg5, entry1_arg6, entry1_arg8, entry1_arg10,
    entry1_bias7, entry1_bias9, entry1_bias11, bias_row, bias_row, bias_row]
  rfl

end Cert.KernelIdeal.Glue

end
-- ==== Proof.LibPlainDot.lean ====
/-
  A plain matrix product read at an index.

  For a contraction of an M×K matrix with a K×N matrix along the shared axis (the left operand's axis 1 against the
  right operand's axis 0, no batch axes), the entry at row r and column c is the sum over k of A[r, k] · B[k, c].
  This holds for the kernel's matrix product into a zero accumulator and for the host's dot product alike, on the
  extended reals, and it is stated for ANY dimension-number record with those axis lists, so that each printed record
  is an instance by reflexivity of its lists.
-/
import Idealize.ShloMosaic.Lib.ValueIdx
import Idealize.ShloMosaic.PureOps.Ideal.Laws

noncomputable section

namespace PlainDot

open Idealize.ShloMosaic Idealize.ShloMosaic.ValueIdx

variable {M K N : Nat} {φ₁ φ₂ : FTy}

/-- The axis lists of a plain product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable (d : DotDims ⟨2, ![M, K]⟩ ⟨2, ![K, N]⟩ ⟨2, ![M, N]⟩) (hd : IsPlain d)

include hd

theorem contr_rank : d.contr.rank = 1 := by rw [d.rank_contr, hd.lc]; rfl

theorem contr_size : d.contr.size ⟨0, by rw [contr_rank d hd]; exact Nat.one_pos⟩ = K := by
  have h := d.size_contr 0 (by rw [hd.lc]; exact Nat.one_pos)
  rw [h]
  simp [hd.lc]

/-- The left operand is read at row `r`, column the contraction coordinate. -/
theorem lhsIdx_eq (r : Fin M) (c : Fin N) (k : Fin K) :
    d.lhsIdx (ix2 r c) ((contrEquiv1 d K (contr_rank d hd) (contr_size d hd)).symm k) = ix2 r k := by
  funext a
  apply Fin.ext
  match a with
  | ⟨0, _⟩ =>
    show (d.lhsIdx (ix2 r c) _ (0 : Fin 2)).val = r.val
    unfold DotDims.lhsIdx
    have hb : (0 : Fin 2) ∉ d.lhsBatch := by rw [hd.lb]; exact List.not_mem_nil
    have hn : (0 : Fin 2) ∈ d.lhsNonContracting := by rw [hd.ln]; exact List.mem_singleton.mpr rfl
    rw [dif_neg hb, dif_pos hn]
    simp only [Fin.val_cast]
    have key : ∀ (p : Nat) (hp : p < 2), p = 0 → ((ix2 r c : (⟨2, ![M, N]⟩ : Shape).Idx) ⟨p, hp⟩).val = r.val :=
      fun p hp h => by subst h; rfl
    exact key _ _ (by simp [hd.lb, hd.ln])
  | ⟨1, _⟩ =>
    show (d.lhsIdx (ix2 r c) _ (1 : Fin 2)).val = k.val
    rw [d.lhsIdx_val_of_single hd.lc]
    exact contrEquiv1_symm_val d K (contr_rank d hd) (contr_size d hd) k

/-- The right operand is read at row the contraction coordinate, column `c`. -/
theorem rhsIdx_eq (r : Fin M) (c : Fin N) (k : Fin K) :
    d.rhsIdx (ix2 r c) ((contrEquiv1 d K (contr_rank d hd) (contr_size d hd)).symm k) = ix2 k c := by
  funext a
  apply Fin.ext
  match a with
  | ⟨0, _⟩ =>
    show (d.rhsIdx (ix2 r c) _ (0 : Fin 2)).val = k.val
    rw [d.rhsIdx_val_of_single hd.rc]
    exact contrEquiv1_symm_val d K (contr_rank d hd) (contr_size d hd) k
  | ⟨1, _⟩ =>
    show (d.rhsIdx (ix2 r c) _ (1 : Fin 2)).val = c.val
    unfold DotDims.rhsIdx
    have hb : (1 : Fin 2) ∉ d.rhsBatch := by rw [hd.rb]; exact List.not_mem_nil
    have hn : (1 : Fin 2) ∈ d.rhsNonContracting := by rw [hd.rn]; exact List.mem_singleton.mpr rfl
    rw [dif_neg hb, dif_pos hn]
    simp only [Fin.val_cast]
    have key : ∀ (p : Nat) (hp : p < 2), p = 1 → ((ix2 r c : (⟨2, ![M, N]⟩ : Shape).Idx) ⟨p, hp⟩).val = c.val :=
      fun p hp h => by subst h; rfl
    exact key _ _ (by simp [hd.lb, hd.ln, hd.rn])

/-- The contraction sum, re-indexed by the shared axis's coordinate. -/
theorem sum_eq (A : (⟨2, ![M, K]⟩ : Shape).Idx → EReal) (B : (⟨2, ![K, N]⟩ : Shape).Idx → EReal) (r : Fin M) (c : Fin N) :
    (∑ q : d.contr.Idx, A (d.lhsIdx (ix2 r c) q) * B (d.rhsIdx (ix2 r c) q)) = ∑ k : Fin K, A (ix2 r k) * B (ix2 k c) := by
  rw [← Equiv.sum_comp (contrEquiv1 d K (contr_rank d hd) (contr_size d hd)).symm]
  exact Finset.sum_congr rfl fun k _ => by rw [lhsIdx_eq d hd r c k, rhsIdx_eq d hd r c k]

/-- The kernel's matrix product into the zero accumulator, at an entry. -/
theorem matmul_zero_apply (prec : Option ContractPrecision) (A : FVec Ideal ⟨2, ![M, K]⟩ φ₁) (B : FVec Ideal ⟨2, ![K, N]⟩ φ₂)
    (r : Fin M) (c : Fin N) :
    FloatOps.matmul d prec A B (constant ⟨2, ![M, N]⟩ .f32 0x00000000#32) (ix2 r c) = ∑ k : Fin K, A (ix2 r k) * B (ix2 k c) := by
  rw [Ideal.matmul_constant_zero_apply]
  exact sum_eq d hd A B r c

/-- The host's dot product, at an entry. -/
theorem dotGeneral_apply (prec : Option ContractPrecision) (sched : HostSchedule) (A : FVec Ideal ⟨2, ![M, K]⟩ φ₁)
    (B : FVec Ideal ⟨2, ![K, N]⟩ φ₂) (r : Fin M) (c : Fin N) :
    FloatOps.dotGeneral d prec sched A B (ix2 r c) = ∑ k : Fin K, A (ix2 r k) * B (ix2 k c) := by
  rw [Ideal.dotGeneral_apply]
  exact sum_eq d hd A B r c

end PlainDot

end
-- ==== Proof.KValue0.lean ====
/-
  Region 0 of the kernel program, as a value: after the run its output array is the graph-convolution layer of the
  arrays the region was entered with. Each of the 20 grid points handles 5000 consecutive node rows: it reads rows
  5000·t … 5000·t+4999 of the aggregated features and of the node features, the two whole weight matrices and the
  bias row, and writes the same rows of the output. The layer acts on one row at a time, so the block a point writes
  is the block of the whole-array function, and the 20 blocks cover the array.
-/
import proofs.«425800_j86053964743053_4_alg».proof.Proof.Gen.KernelIdeal.Frame
import proofs.«425800_j86053964743053_4_alg».proof.Proof.Spec
import proofs.«425800_j86053964743053_4_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Value0

open Cert.KernelIdeal Cert.KernelIdeal.Gen Idealize.ShloMosaic Idealize.ShloMosaic.TcCoe Idealize.SL.Sem
open Idealize.ShloMosaic.ValueIdx
open Idealize.ShloMosaic.Pipeline (Dat)

/-- A block of rows times a weight matrix, read at an entry: the sum over the shared axis. -/
theorem prod_at (x : Vec Ideal S5000x64 .f32) (w : Vec Ideal S64x64 .f32) (p : Fin 5000) (q : Fin 64) :
    matmul (F := Ideal) (φ₁ := .f32) (φ₂ := .f32) dot_S5000x64_S64x64_S5000x64_1_0_0_1_n_n (some .fp32) x w
        (constant (F := Ideal) S5000x64 .f32 0x00000000#32) (ix2 p q)
      = ∑ k : Fin 64, x (ix2 p k) * w (ix2 k q) :=
  PlainDot.matmul_zero_apply dot_S5000x64_S64x64_S5000x64_1_0_0_1_n_n ⟨rfl, rfl, rfl, rfl, rfl, rfl⟩ (some .fp32) x w p q

/-- The bias row repeated down the block, read at an entry: the bias of that column. -/
theorem bias_at (b : Vec Ideal S1x64 .f32) (p : Fin 5000) (q : Fin 64) :
    broadcastTo S5000x64 (shapeCast S1x64 b shapeCasts_S1x64_S1x64) broadcasts_S1x64_S5000x64 (ix2 p q) = b (ix2 0 q) := by
  rw [shapeCast_self]
  refine broadcastTo_apply b _ (ix2 p q) (ix2 0 q) ?_
  intro a
  match a with
  | ⟨0, _⟩ => rfl
  | ⟨1, _⟩ => rfl

/-- The layer's arithmetic on blocks: the body's stored value is the layer applied to the five loaded blocks. -/
theorem pay_eq (x0 x1 : Vec Ideal S5000x64 .f32) (x2 x3 : Vec Ideal S64x64 .f32) (x4 : Vec Ideal S1x64 .f32) :
    k0_pay1 (F := Ideal) x0 x2 x1 x3 x4 = GraphHead.sage 5000 x0 x1 x2 x3 x4 := by
  funext i
  obtain ⟨p, q, rfl⟩ : ∃ (p : Fin 5000) (q : Fin 64), i = ix2 p q := ⟨i 0, i 1, eq_ix2 i⟩
  rw [GraphHead.sage_apply]
  unfold GraphHead.sageRow GraphHead.row k0_pay1
  show max ((matmul (F := Ideal) dot_S5000x64_S64x64_S5000x64_1_0_0_1_n_n (some .fp32)
        (shapeCast S5000x64 x0 shapeCasts_S5000x64_S5000x64) x2 (constant (F := Ideal) S5000x64 .f32 0x00000000#32) (ix2 p q)
      + matmul (F := Ideal) dot_S5000x64_S64x64_S5000x64_1_0_0_1_n_n (some .fp32) x1 x3
        (constant (F := Ideal) S5000x64 .f32 0x00000000#32) (ix2 p q))
      + broadcastTo S5000x64 (shapeCast S1x64 x4 shapeCasts_S1x64_S1x64) broadcasts_S1x64_S5000x64 (ix2 p q))
      (Ideal.ofBits .f32 0x00000000#32) = _
  rw [shapeCast_self, prod_at, prod_at, bias_at]

variable (V : (c : Dev nD) → (b : Ref sig .tc) → Buf (Elt Ideal) ((c : Thread nD τ).loc b))

/-- The zero offsets of a whole-buffer access, as a constant function. -/
theorem zero_off : (![0, 0] : Fin 2 → Nat) = fun _ => 0 := funext fun a => by fin_cases a <;> rfl

/-- The printed index maps over the 20 grid points: the three row-blocked windows (aggregated features, node
    features, output) sit at block row `t`, block column 0; the two weight matrices and the bias row are one block. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer reads one row of each feature array: two evaluations agree when the rows read agree entry by entry,
    the weights and the bias are the same, and the column is the same. -/
theorem sage_rows (n m : Nat) (a x : GraphHead.Mat n 64) (a' x' : GraphHead.Mat m 64)
    (wl wr wl' wr' : GraphHead.Mat 64 64) (b b' : GraphHead.Mat 1 64)
    (i : (⟨2, ![n, 64]⟩ : Shape).Idx) (i' : (⟨2, ![m, 64]⟩ : Shape).Idx)
    (ha : ∀ k : Fin 64, a (ix2 (i 0) k) = a' (ix2 (i' 0) k)) (hx : ∀ k : Fin 64, x (ix2 (i 0) k) = x' (ix2 (i' 0) k))
    (hwl : wl = wl') (hwr : wr = wr') (hb : b = b') (hq : i 1 = i' 1) :
    GraphHead.sage n a x wl wr b i = GraphHead.sage m a' x' wl' wr' b' i' := by
  subst hwl hwr hb
  unfold GraphHead.sage GraphHead.sageRow GraphHead.row
  simp only [ha, hx, hq]

/-- What point `t` writes back is block `t` of the layer of the entry arrays. -/
theorem flushed_eq (c : Dev nD) (t : Fin cfg0.N) :
    (dat0 (F := Ideal) V c).flushed 5 t = ((cfg0.win 5).blk t).view.read (Elt Ideal)
      (GraphHead.sage 100000 (V c main_v22) (V c main_arg0) (V c main_arg2) (V c main_arg3) (V c main_v23)) := by
  show (cfg0.win 5).cut (grid0.coords t) ((dat0 (F := Ideal) V c).after 5 t) = _
  rw [after0_5]
  unfold out0_5
  rw [View.canon_unit_zero zero_off]
  simp only [View.ld_unit_zero (S := S5000x64) zero_off, View.ld_unit_zero (S := S64x64) zero_off,
    View.ld_unit_zero (S := S1x64) zero_off]
  rw [pay_eq]
  obtain ⟨e00, e01, e10, e11, e20, e21, e30, e31, e40, e41, e50, e51⟩ := index_facts t
  funext j
  show GraphHead.sage 5000 (iblk0 V c 0 t) (iblk0 V c 1 t) (iblk0 V c 2 t) (iblk0 V c 3 t) (iblk0 V c 4 t)
      ((cfg0.win 5).xinj (grid0.coords t) j)
    = GraphHead.sage 100000 (V c main_v22) (V c main_arg0) (V c main_arg2) (V c main_arg3) (V c main_v23)
      (((cfg0.win 5).blk t).view.emb j)
  refine sage_rows 5000 100000 _ _ _ _ _ _ _ _ _ _ _ _ ?_ ?_ ?_ ?_ ?_ ?_
  · -- row `j 0` of the block of aggregated features is row `5000·t + j 0` of the array
    intro k
    show V c main_v22 _ = V c main_v22 _
    refine congrArg (V c main_v22) ?_
    funext a; apply Fin.ext
    match a with
    | ⟨0, _⟩ =>
      show win0_0.index t (0 : Fin 2) * 5000 + 1 * (j 0).val = win0_5.index t (0 : Fin 2) * 5000 + 1 * (j 0).val
      omega
    | ⟨1, _⟩ =>
      show win0_0.index t (1 : Fin 2) * 64 + 1 * k.val = k.val
      omega
  · -- the same for the block of node features
    intro k
    show V c main_arg0 _ = V c main_arg0 _
    refine congrArg (V c main_arg0) ?_
    funext a; apply Fin.ext
    match a with
    | ⟨0, _⟩ =>
      show win0_1.index t (0 : Fin 2) * 5000 + 1 * (j 0).val = win0_5.index t (0 : Fin 2) * 5000 + 1 * (j 0).val
      omega
    | ⟨1, _⟩ =>
      show win0_1.index t (1 : Fin 2) * 64 + 1 * k.val = k.val
      omega
  · -- the first weight matrix is one block
    funext y
    show V c main_arg2 _ = V c main_arg2 y
    refine congrArg (V c main_arg2) ?_
    funext a; apply Fin.ext
    match a with
    | ⟨0, _⟩ => show win0_2.index t (0 : Fin 2) * 64 + 1 * (y 0).val = (y 0).val; omega
    | ⟨1, _⟩ => show win0_2.index t (1 : Fin 2) * 64 + 1 * (y 1).val = (y 1).val; omega
  · -- so is the second
    funext y
    show V c main_arg3 _ = V c main_arg3 y
    refine congrArg (V c main_arg3) ?_
    funext a; apply Fin.ext
    match a with
    | ⟨0, _⟩ => show win0_3.index t (0 : Fin 2) * 64 + 1 * (y 0).val = (y 0).val; omega
    | ⟨1, _⟩ => show win0_3.index t (1 : Fin 2) * 64 + 1 * (y 1).val = (y 1).val; omega
  · -- and the bias row
    funext y
    show V c main_v23 _ = V c main_v23 y
    refine congrArg (V c main_v23) ?_
    funext a; apply Fin.ext
    match a with
    | ⟨0, _⟩ => show win0_4.index t (0 : Fin 2) * 1 + 1 * (y 0).val = (y 0).val; omega
    | ⟨1, _⟩ => show win0_4.index t (1 : Fin 2) * 64 + 1 * (y 1).val = (y 1).val; omega
  · -- the column inside the block is the column in the array
    apply Fin.ext
    show (j 1).val = win0_5.index t (1 : Fin 2) * 64 + 1 * (j 1).val
    omega

/-- An index of the array is in point `t`'s block iff each coordinate is in the block's range on its axis. -/
theorem mem_blk (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v24).slice (win0_5.rect t)).set ↔ _
  rw [View.set_slice_whole, Rect.mem_set_unit]
  exact Iff.rfl

/-- The 20 blocks of 5000 rows cover the array: row `r` lies in the block of point `r / 5000`. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  have hlt : (i 0).val / 5000 < cfg0.N := by rw [hN]; omega
  obtain ⟨-, -, -, -, -, -, -, -, -, -, e50, e51⟩ := index_facts ⟨(i 0).val / 5000, hlt⟩
  have e50' : win0_5.index ⟨(i 0).val / 5000, hlt⟩ (0 : Fin 2) = (i 0).val / 5000 := e50
  refine ⟨⟨(i 0).val / 5000, hlt⟩, flush0_5 _, ?_⟩
  rw [mem_blk]
  intro a
  match a with
  | ⟨0, _⟩ =>
    show win0_5.index ⟨(i 0).val / 5000, hlt⟩ (0 : Fin 2) * 5000 ≤ (i 0).val
      ∧ (i 0).val < win0_5.index ⟨(i 0).val / 5000, hlt⟩ (0 : Fin 2) * 5000 + 5000
    omega
  | ⟨1, _⟩ =>
    show win0_5.index ⟨(i 0).val / 5000, hlt⟩ (1 : Fin 2) * 64 ≤ (i 1).val
      ∧ (i 1).val < win0_5.index ⟨(i 0).val / 5000, hlt⟩ (1 : Fin 2) * 64 + 64
    omega

/-- After the region its output array is the layer of the entry arrays, index by index. -/
theorem final (c : Dev nD) :
    (dat0 (F := Ideal) V c).arrAt 5 cfg0.N
      = GraphHead.sage 100000 (V c main_v22) (V c main_arg0) (V c main_arg2) (V c main_arg3) (V c main_v23) :=
  (dat0 (F := Ideal) V c).arrAt_eq_of_cover 5 _ (fun t _ => flushed_eq V c t) cover

end Cert.KernelIdeal.Value0

end
-- ==== Proof.KValue1.lean ====
/-
  Region 1 of the kernel program, as a value: after the run its output array is the classifier head of the arrays
  the region was entered with. Each of the 20 grid points handles 5000 consecutive node rows of the aggregated and
  of the node features, with the whole weight matrices and bias rows, and writes the same rows of the 10 class
  scores. The head acts on one row at a time, so the block a point writes is the block of the whole-array function,
  and the 20 blocks cover the array.
-/
import proofs.«425800_j86053964743053_4_alg».proof.Proof.Gen.KernelIdeal.Frame
import proofs.«425800_j86053964743053_4_alg».proof.Proof.Spec
import proofs.«425800_j86053964743053_4_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Value1

open Cert.KernelIdeal Cert.KernelIdeal.Gen Idealize.ShloMosaic Idealize.ShloMosaic.TcCoe Idealize.SL.Sem
open Idealize.ShloMosaic.ValueIdx
open Idealize.ShloMosaic.Pipeline (Dat)

/-! ### A column of row results, read at an entry -/

/-- A length-`a` vector cast to an `[a, 1]` column reads, at `(p, u)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over the class axis inserts into row `p` is `(p, k)`. -/
theorem lift_row (h : S5000x10.Reduces [1] S5000) (p : Fin 5000) (k : Fin (S5000x10.size 1)) :
    h.lift (ix1 p) k = ix2 p (⟨k.val, k.isLt⟩ : Fin 10) := by
  funext c; apply Fin.ext
  fin_cases c <;> rfl

/-! ### The stages of the body, as functions of whole blocks -/

/-- A graph-convolution layer on a block of rows: two products, the bias row, the clamp at zero. -/
def layerV (A X : FVec Ideal S5000x64 .f32) (Wl Wr : FVec Ideal S64x64 .f32) (b : FVec Ideal S1x64 .f32) :
    FVec Ideal S5000x64 .f32 :=
  maximumf
    (addf
      (addf
        (matmul dot_S5000x64_S64x64_S5000x64_1_0_0_1_n_n (some .fp32) (shapeCast S5000x64 A shapeCasts_S5000x64_S5000x64) Wl
          (constant (F := Ideal) S5000x64 .f32 0x00000000#32))
        (matmul dot_S5000x64_S64x64_S5000x64_1_0_0_1_n_n (some .fp32) (shapeCast S5000x64 X shapeCasts_S5000x64_S5000x64) Wr
          (constant (F := Ideal) S5000x64 .f32 0x00000000#32)))
      (broadcastTo S5000x64 (shapeCast S1x64 b shapeCasts_S1x64_S1x64) broadcasts_S1x64_S5000x64))
    (broadcast S5000x64 (Scalar.ofBits (F := Ideal) .f32 0x00000000#32))

/-- A dense layer with the clamp at zero on a block of rows. -/
def denseClampV (H : FVec Ideal S5000x64 .f32) (W : FVec Ideal S64x64 .f32) (b : FVec Ideal S1x64 .f32) :
    FVec Ideal S5000x64 .f32 :=
  maximumf
    (addf
      (matmul dot_S5000x64_S64x64_S5000x64_1_0_0_1_n_n (some .fp32) H W (constant (F := Ideal) S5000x64 .f32 0x00000000#32))
      (broadcastTo S5000x64 (shapeCast S1x64 b shapeCasts_S1x64_S1x64) broadcasts_S1x64_S5000x64))
    (broadcast S5000x64 (Scalar.ofBits (F := Ideal) .f32 0x00000000#32))

/-- The dense layer into the 10 class scores on a block of rows. -/
def scoresV (H : FVec Ideal S5000x64 .f32) (W : FVec Ideal S64x10 .f32) (b : FVec Ideal S1x10 .f32) :
    FVec Ideal S5000x10 .f32 :=
  addf
    (matmul dot_S5000x64_S64x10_S5000x10_1_0_0_1_n_n (some .fp32) H W (constant (F := Ideal) S5000x10 .f32 0x00000000#32))
    (broadcastTo S5000x10 (shapeCast S1x10 b shapeCasts_S1x10_S1x10) broadcasts_S1x10_S5000x10)

/-- Each row's maximum, as a column spread over the 10 classes. -/
def rowMaxV (Z : FVec Ideal S5000x10 .f32) : FVec Ideal S5000x10 .f32 :=
  broadcastTo S5000x10
    (shapeCast S5000x1
      (multiReduction (F := Ideal) .maximumf [1] S5000 Z 0xFF800000#32 reduces_S5000x10_S5000 (.inl rfl) rfl)
      shapeCasts_S5000_S5000x1)
    broadcasts_S5000x1_S5000x10

/-- The logarithm of each row's sum, as a column spread over the 10 classes. -/
def logSumV (E : FVec Ideal S5000x10 .f32) : FVec Ideal S5000x10 .f32 :=
  broadcastTo S5000x10
    (log
      (shapeCast S5000x1
        (multiReduction (F := Ideal) .add [1] S5000 E 0x00000000#32 reduces_S5000x10_S5000 (.inl rfl) rfl)
        shapeCasts_S5000_S5000x1))
    broadcasts_S5000x1_S5000x10

/-- The body's shifted scores are these stages composed. -/
theorem pay2_stages (x0 x1 : FVec Ideal S5000x64 .f32) (x2 x3 : FVec Ideal S64x64 .f32) (x4 : FVec Ideal S1x64 .f32)
    (x5 : FVec Ideal S64x64 .f32) (x6 : FVec Ideal S1x64 .f32) (x7 : FVec Ideal S64x10 .f32) (x8 : FVec Ideal S1x10 .f32) :
    k1_pay2 (F := Ideal) x0 x2 x1 x3 x4 x5 x6 x7 x8
      = subf (scoresV (denseClampV (layerV x0 x1 x2 x3 x4) x5 x6) x7 x8)
          (rowMaxV (scoresV (denseClampV (layerV x0 x1 x2 x3 x4) x5 x6) x7 x8)) := rfl

/-- The body's stored value from the shifted scores and their exponentials. -/
theorem pay1_stages (v32 v33 : FVec Ideal S5000x10 .f32) : k1_pay1 (F := Ideal) v32 v33 = subf v32 (logSumV v33) := rfl

/-! ### Each stage at an entry -/

/-- A bias row of 64 spread over the block's rows reads the row's entry of the column. -/
theorem biasRow64_apply (b : FVec Ideal S1x64 .f32) (p : Fin 5000) (q : Fin 64) :
    broadcastTo S5000x64 (shapeCast S1x64 b shapeCasts_S1x64_S1x64) broadcasts_S1x64_S5000x64 (ix2 p q)
      = b (ix2 (0 : Fin 1) q) := by
  rw [shapeCast_self]
  exact broadcastTo_1b_ab_apply b broadcasts_S1x64_S5000x64 p q

/-- A bias row of 10 spread over the block's rows reads the row's entry of the column. -/
theorem biasRow10_apply (b : FVec Ideal S1x10 .f32) (p : Fin 5000) (q : Fin 10) :
    broadcastTo S5000x10 (shapeCast S1x10 b shapeCasts_S1x10_S1x10) broadcasts_S1x10_S5000x10 (ix2 p q)
      = b (ix2 (0 : Fin 1) q) := by
  rw [shapeCast_self]
  exact broadcastTo_1b_ab_apply b broadcasts_S1x10_S5000x10 p q

/-- The layer on a block of rows is the specification's layer of the block. -/
theorem layerV_eq (A X : FVec Ideal S5000x64 .f32) (Wl Wr : FVec Ideal S64x64 .f32) (b : FVec Ideal S1x64 .f32) :
    layerV A X Wl Wr b = GraphHead.sage 5000 A X Wl Wr b := by
  funext i
  obtain ⟨p, q, rfl⟩ : ∃ (p : Fin 5000) (q : Fin 64), i = ix2 p q := ⟨i 0, i 1, eq_ix2 i⟩
  rw [GraphHead.sage_apply]
  unfold layerV
  rw [shapeCast_self A, shapeCast_self X]
  exact congrArg₂ max
    (congrArg₂ (· + ·)
      (congrArg₂ (· + ·)
        (PlainDot.matmul_zero_apply dot_S5000x64_S64x64_S5000x64_1_0_0_1_n_n ⟨rfl, rfl, rfl, rfl, rfl, rfl⟩ (some .fp32) A Wl p q)
        (PlainDot.matmul_zero_apply dot_S5000x64_S64x64_S5000x64_1_0_0_1_n_n ⟨rfl, rfl, rfl, rfl, rfl, rfl⟩ (some .fp32) X Wr p q))
      (biasRow64_apply b p q))
    rfl

/-- The clamped dense layer at an entry: the row's dense layer, clamped at zero. -/
theorem denseClampV_apply (H : FVec Ideal S5000x64 .f32) (W : FVec Ideal S64x64 .f32) (b : FVec Ideal S1x64 .f32)
    (p : Fin 5000) (q : Fin 64) :
    denseClampV H W b (ix2 p q) = max (GraphHead.denseRow W b (GraphHead.row H p) q) GraphHead.floor0 := by
  unfold denseClampV
  exact congrArg₂ max
    (congrArg₂ (· + ·)
      (PlainDot.matmul_zero_apply dot_S5000x64_S64x64_S5000x64_1_0_0_1_n_n ⟨rfl, rfl, rfl, rfl, rfl, rfl⟩ (some .fp32) H W p q)
      (biasRow64_apply b p q))
    rfl

/-- The class scores at an entry: the row's dense layer into the classes. -/
theorem scoresV_apply (H : FVec Ideal S5000x64 .f32) (W : FVec Ideal S64x10 .f32) (b : FVec Ideal S1x10 .f32)
    (p : Fin 5000) (q : Fin 10) :
    scoresV H W b (ix2 p q) = GraphHead.denseRow W b (GraphHead.row H p) q := by
  unfold scoresV
  exact congrArg₂ (· + ·)
    (PlainDot.matmul_zero_apply dot_S5000x64_S64x10_S5000x10_1_0_0_1_n_n ⟨rfl, rfl, rfl, rfl, rfl, rfl⟩ (some .fp32) H W p q)
    (biasRow10_apply b p q)

/-- The column of row maxima at an entry: the maximum of the entry's row, folded from minus infinity. -/
theorem rowMaxV_apply (Z : FVec Ideal S5000x10 .f32) (p : Fin 5000) (q : Fin 10) :
    rowMaxV Z (ix2 p q) = GraphHead.rowMax (GraphHead.row Z p) := by
  unfold rowMaxV
  refine (broadcastTo_a1_ab_apply _ broadcasts_S5000x1_S5000x10 p q).trans ?_
  refine (shapeCast_a_a1_apply _ shapeCasts_S5000_S5000x1 p 0).trans ?_
  refine (Ideal.multiReduction_maximumf_single Z _ reduces_S5000x10_S5000 (.inl rfl) rfl (ix1 p)).trans ?_
  unfold GraphHead.rowMax
  refine congrArg (fun f => (Finset.univ : Finset (Fin 10)).fold max GraphHead.negInf f) ?_
  funext k
  exact congrArg Z (lift_row reduces_S5000x10_S5000 p k)

/-- The column of logarithms of row sums at an entry: the logarithm of the sum over the entry's row. -/
theorem logSumV_apply (E : FVec Ideal S5000x10 .f32) (p : Fin 5000) (q : Fin 10) :
    logSumV E (ix2 p q) = Ideal.log (∑ k : Fin 10, E (ix2 p k)) := by
  unfold logSumV
  refine (broadcastTo_a1_ab_apply _ broadcasts_S5000x1_S5000x10 p q).trans ?_
  refine congrArg Ideal.log ?_
  refine (shapeCast_a_a1_apply _ shapeCasts_S5000_S5000x1 p 0).trans ?_
  refine (Ideal.multiReduction_add_single E _ reduces_S5000x10_S5000 (.inl rfl) rfl (ix1 p)).trans ?_
  exact Finset.sum_congr rfl fun k _ => congrArg E (lift_row reduces_S5000x10_S5000 p k)

/-- The shifted scores at an entry. -/
theorem shiftedV_apply (Z : FVec Ideal S5000x10 .f32) (p : Fin 5000) (k : Fin 10) :
    subf Z (rowMaxV Z) (ix2 p k) = GraphHead.shifted (GraphHead.row Z p) k := by
  show Z (ix2 p k) - rowMaxV Z (ix2 p k) = _
  rw [rowMaxV_apply]
  rfl

/-- From the class scores on, the body's stored value at an entry is the log-softmax of the entry's row. -/
theorem logSoftmaxV_apply (Z : FVec Ideal S5000x10 .f32) (p : Fin 5000) (q : Fin 10) :
    k1_pay1 (F := Ideal) (subf Z (rowMaxV Z)) (exp (subf Z (rowMaxV Z))) (ix2 p q)
      = GraphHead.logSoftmaxRow (GraphHead.row Z p) q := by
  rw [pay1_stages]
  show subf Z (rowMaxV Z) (ix2 p q) - logSumV (exp (subf Z (rowMaxV Z))) (ix2 p q) = _
  rw [logSumV_apply, shiftedV_apply]
  unfold GraphHead.logSoftmaxRow
  refine congrArg (fun s => GraphHead.shifted (GraphHead.row Z p) q - Ideal.log s) ?_
  exact Finset.sum_congr rfl fun k _ => congrArg Ideal.exp (shiftedV_apply Z p k)

/-- The head's arithmetic on blocks: the body's stored value is the head applied to the nine loaded blocks. -/
theorem pay_eq (x0 x1 : Vec Ideal S5000x64 .f32) (x2 x3 : Vec Ideal S64x64 .f32) (x4 : Vec Ideal S1x64 .f32)
    (x5 : Vec Ideal S64x64 .f32) (x6 : Vec Ideal S1x64 .f32) (x7 : Vec Ideal S64x10 .f32) (x8 : Vec Ideal S1x10 .f32) :
    k1_pay1 (F := Ideal) (k1_pay2 x0 x2 x1 x3 x4 x5 x6 x7 x8) (k1_pay3 x0 x2 x1 x3 x4 x5 x6 x7 x8)
      = GraphHead.head 5000 x0 x1 x2 x3 x4 x5 x6 x7 x8 := by
  funext i
  obtain ⟨p, q, rfl⟩ : ∃ (p : Fin 5000) (q : Fin 10), i = ix2 p q := ⟨i 0, i 1, eq_ix2 i⟩
  rw [GraphHead.head_apply]
  have hS : ∀ k : Fin 10, scoresV (denseClampV (layerV x0 x1 x2 x3 x4) x5 x6) x7 x8 (ix2 p k)
      = GraphHead.denseRow x7 x8 (fun j => max (GraphHead.denseRow x5 x6
          (GraphHead.sageRow x2 x3 x4 (GraphHead.row x0 p) (GraphHead.row x1 p)) j) GraphHead.floor0) k := by
    intro k
    rw [scoresV_apply]
    refine congrArg (fun v => GraphHead.denseRow x7 x8 v k) ?_
    funext j
    show denseClampV (layerV x0 x1 x2 x3 x4) x5 x6 (ix2 p j) = _
    rw [denseClampV_apply, layerV_eq]
    rfl
  show k1_pay1 (F := Ideal) (k1_pay2 x0 x2 x1 x3 x4 x5 x6 x7 x8) (exp (k1_pay2 (F := Ideal) x0 x2 x1 x3 x4 x5 x6 x7 x8)) (ix2 p q) = _
  rw [pay2_stages, logSoftmaxV_apply]
  unfold GraphHead.headRow
  refine congrArg (fun v => GraphHead.logSoftmaxRow v q) ?_
  funext k
  exact hS k

variable (V : (c : Dev nD) → (b : Ref sig .tc) → Buf (Elt Ideal) ((c : Thread nD τ).loc b))

/-! ### From the blocks to the arrays -/

/-- The zero offsets of a whole-buffer access, as the constant function. -/
theorem zero_offsets : (![0, 0] : Fin 2 → Nat) = fun _ => 0 := funext fun a => by fin_cases a <;> rfl

/-- The printed index maps, decided once over the 20 grid points: the windows over the node rows (the two inputs of
    64 features and the output of 10 scores) are at block `t` of the rows and block 0 of the columns; the weight
    matrices and bias rows are at block 0 on both axes. -/
theorem index_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = t.val ∧ win1_9.index t (1 : Fin 2) = 0) :=
  (by decide +kernel : ∀ t : Fin grid1.N, _)

/-- Row `p` of point `t`'s block of window 0 is row `5000 t + p` of its array. -/
theorem block_row0 (c : Dev nD) (t : Fin cfg1.N) (p : Fin 5000) (P : Fin 100000) (hP : P.val = 5000 * t.val + p.val) :
    GraphHead.row (iblk1 (F := Ideal) V c 0 t : Vec Ideal S5000x64 .f32) p = GraphHead.row (V c main_v43) P := by
  funext k
  show (iblk1 (F := Ideal) V c 0 t : Vec Ideal S5000x64 .f32) (ix2 p k) = V c main_v43 (ix2 P k)
  unfold iblk1
  rw [View.read_apply]
  show V c main_v43 _ = V c main_v43 _
  refine congrArg (V c main_v43) ?_
  obtain ⟨⟨e0, e1⟩, -, -, -, -, -, -, -, -, -⟩ := index_facts t
  funext a; apply Fin.ext
  match a with
  | ⟨0, _⟩ => show win1_0.index t (0 : Fin 2) * 5000 + 1 * p.val = P.val; rw [e0, hP]; omega
  | ⟨1, _⟩ => show win1_0.index t (1 : Fin 2) * 64 + 1 * k.val = k.val; rw [e1]; omega

/-- Row `p` of point `t`'s block of window 1 is row `5000 t + p` of its array. -/
theorem block_row1 (c : Dev nD) (t : Fin cfg1.N) (p : Fin 5000) (P : Fin 100000) (hP : P.val = 5000 * t.val + p.val) :
    GraphHead.row (iblk1 (F := Ideal) V c 1 t : Vec Ideal S5000x64 .f32) p = GraphHead.row (V c main_v24) P := by
  funext k
  show (iblk1 (F := Ideal) V c 1 t : Vec Ideal S5000x64 .f32) (ix2 p k) = V c main_v24 (ix2 P k)
  unfold iblk1
  rw [View.read_apply]
  show V c main_v24 _ = V c main_v24 _
  refine congrArg (V c main_v24) ?_
  obtain ⟨-, ⟨e0, e1⟩, -, -, -, -, -, -, -, -⟩ := index_facts t
  funext a; apply Fin.ext
  match a with
  | ⟨0, _⟩ => show win1_1.index t (0 : Fin 2) * 5000 + 1 * p.val = P.val; rw [e0, hP]; omega
  | ⟨1, _⟩ => show win1_1.index t (1 : Fin 2) * 64 + 1 * k.val = k.val; rw [e1]; omega

/-- Point `t`'s block of window 2 is its whole array. -/
theorem block_whole2 (c : Dev nD) (t : Fin cfg1.N) :
    (iblk1 (F := Ideal) V c 2 t : Vec Ideal S64x64 .f32) = V c main_arg5 := by
  funext x
  unfold iblk1
  rw [View.read_apply]
  show V c main_arg5 _ = V c main_arg5 x
  refine congrArg (V c main_arg5) ?_
  obtain ⟨-, -, ⟨e0, e1⟩, -, -, -, -, -, -, -⟩ := index_facts t
  funext a; apply Fin.ext
  match a with
  | ⟨0, _⟩ => show win1_2.index t (0 : Fin 2) * 64 + 1 * (x 0).val = (x 0).val; rw [e0]; omega
  | ⟨1, _⟩ => show win1_2.index t (1 : Fin 2) * 64 + 1 * (x 1).val = (x 1).val; rw [e1]; omega

/-- Point `t`'s block of window 3 is its whole array. -/
theorem block_whole3 (c : Dev nD) (t : Fin cfg1.N) :
    (iblk1 (F := Ideal) V c 3 t : Vec Ideal S64x64 .f32) = V c main_arg6 := by
  funext x
  unfold iblk1
  rw [View.read_apply]
  show V c main_arg6 _ = V c main_arg6 x
  refine congrArg (V c main_arg6) ?_
  obtain ⟨-, -, -, ⟨e0, e1⟩, -, -, -, -, -, -⟩ := index_facts t
  funext a; apply Fin.ext
  match a with
  | ⟨0, _⟩ => show win1_3.index t (0 : Fin 2) * 64 + 1 * (x 0).val = (x 0).val; rw [e0]; omega
  | ⟨1, _⟩ => show win1_3.index t (1 : Fin 2) * 64 + 1 * (x 1).val = (x 1).val; rw [e1]; omega

/-- Point `t`'s block of window 4 is its whole array. -/
theorem block_whole4 (c : Dev nD) (t : Fin cfg1.N) :
    (iblk1 (F := Ideal) V c 4 t : Vec Ideal S1x64 .f32) = V c main_v44 := by
  funext x
  unfold iblk1
  rw [View.read_apply]
  show V c main_v44 _ = V c main_v44 x
  refine congrArg (V c main_v44) ?_
  obtain ⟨-, -, -, -, ⟨e0, e1⟩, -, -, -, -, -⟩ := index_facts t
  funext a; apply Fin.ext
  match a with
  | ⟨0, _⟩ => show win1_4.index t (0 : Fin 2) * 1 + 1 * (x 0).val = (x 0).val; rw [e0]; omega
  | ⟨1, _⟩ => show win1_4.index t (1 : Fin 2) * 64 + 1 * (x 1).val = (x 1).val; rw [e1]; omega

/-- Point `t`'s block of window 5 is its whole array. -/
theorem block_whole5 (c : Dev nD) (t : Fin cfg1.N) :
    (iblk1 (F := Ideal) V c 5 t : Vec Ideal S64x64 .f32) = V c main_arg8 := by
  funext x
  unfold iblk1
  rw [View.read_apply]
  show V c main_arg8 _ = V c main_arg8 x
  refine congrArg (V c main_arg8) ?_
  obtain ⟨-, -, -, -, -, ⟨e0, e1⟩, -, -, -, -⟩ := index_facts t
  funext a; apply Fin.ext
  match a with
  | ⟨0, _⟩ => show win1_5.index t (0 : Fin 2) * 64 + 1 * (x 0).val = (x 0).val; rw [e0]; omega
  | ⟨1, _⟩ => show win1_5.index t (1 : Fin 2) * 64 + 1 * (x 1).val = (x 1).val; rw [e1]; omega

/-- Point `t`'s block of window 6 is its whole array. -/
theorem block_whole6 (c : Dev nD) (t : Fin cfg1.N) :
    (iblk1 (F := Ideal) V c 6 t : Vec Ideal S1x64 .f32) = V c main_v45 := by
  funext x
  unfold iblk1
  rw [View.read_apply]
  show V c main_v45 _ = V c main_v45 x
  refine congrArg (V c main_v45) ?_
  obtain ⟨-, -, -, -, -, -, ⟨e0, e1⟩, -, -, -⟩ := index_facts t
  funext a; apply Fin.ext
  match a with
  | ⟨0, _⟩ => show win1_6.index t (0 : Fin 2) * 1 + 1 * (x 0).val = (x 0).val; rw [e0]; omega
  | ⟨1, _⟩ => show win1_6.index t (1 : Fin 2) * 64 + 1 * (x 1).val = (x 1).val; rw [e1]; omega

/-- Point `t`'s block of window 7 is its whole array. -/
theorem block_whole7 (c : Dev nD) (t : Fin cfg1.N) :
    (iblk1 (F := Ideal) V c 7 t : Vec Ideal S64x10 .f32) = V c main_arg10 := by
  funext x
  unfold iblk1
  rw [View.read_apply]
  show V c main_arg10 _ = V c main_arg10 x
  refine congrArg (V c main_arg10) ?_
  obtain ⟨-, -, -, -, -, -, -, ⟨e0, e1⟩, -, -⟩ := index_facts t
  funext a; apply Fin.ext
  match a with
  | ⟨0, _⟩ => show win1_7.index t (0 : Fin 2) * 64 + 1 * (x 0).val = (x 0).val; rw [e0]; omega
  | ⟨1, _⟩ => show win1_7.index t (1 : Fin 2) * 10 + 1 * (x 1).val = (x 1).val; rw [e1]; omega

/-- Point `t`'s block of window 8 is its whole array. -/
theorem block_whole8 (c : Dev nD) (t : Fin cfg1.N) :
    (iblk1 (F := Ideal) V c 8 t : Vec Ideal S1x10 .f32) = V c main_v46 := by
  funext x
  unfold iblk1
  rw [View.read_apply]
  show V c main_v46 _ = V c main_v46 x
  refine congrArg (V c main_v46) ?_
  obtain ⟨-, -, -, -, -, -, -, -, ⟨e0, e1⟩, -⟩ := index_facts t
  funext a; apply Fin.ext
  match a with
  | ⟨0, _⟩ => show win1_8.index t (0 : Fin 2) * 1 + 1 * (x 0).val = (x 0).val; rw [e0]; omega
  | ⟨1, _⟩ => show win1_8.index t (1 : Fin 2) * 10 + 1 * (x 1).val = (x 1).val; rw [e1]; omega

/-- What point `t` writes back is block `t` of the head of the entry arrays: the head acts row by row, the block's
    row `p` is the arrays' row `5000 t + p`, and the weights and biases are whole. -/
theorem flushed_eq (c : Dev nD) (t : Fin cfg1.N) :
    (dat1 (F := Ideal) V c).flushed 9 t
      = ((cfg1.win 9).blk t).view.read (Elt Ideal)
          (GraphHead.head 100000 (V c main_v43) (V c main_v24) (V c main_arg5) (V c main_arg6) (V c main_v44)
            (V c main_arg8) (V c main_v45) (V c main_arg10) (V c main_v46)) := by
  show (cfg1.win 9).cut (grid1.coords t) ((dat1 V c).after 9 t) = _
  rw [after1_9]
  unfold out1_9
  rw [View.canon_unit_zero zero_offsets]
  simp only [View.ld_unit_zero (S := S5000x64) zero_offsets, View.ld_unit_zero (S := S64x64) zero_offsets,
    View.ld_unit_zero (S := S1x64) zero_offsets, View.ld_unit_zero (S := S64x10) zero_offsets,
    View.ld_unit_zero (S := S1x10) zero_offsets]
  rw [pay_eq]
  rw [block_whole2 V c t, block_whole3 V c t, block_whole4 V c t, block_whole5 V c t, block_whole6 V c t,
    block_whole7 V c t, block_whole8 V c t]
  funext j
  obtain ⟨p, q, rfl⟩ : ∃ (p : Fin 5000) (q : Fin 10), j = ix2 p q := ⟨j 0, j 1, eq_ix2 j⟩
  obtain ⟨-, -, -, -, -, -, -, -, -, ⟨e0, e1⟩⟩ := index_facts t
  have ht : t.val < 20 := t.isLt
  have hP : 5000 * t.val + p.val < 100000 := by have := p.isLt; omega
  have hemb : ((cfg1.win 9).blk t).view.emb (ix2 p q) = ix2 (⟨5000 * t.val + p.val, hP⟩ : Fin 100000) q := by
    funext a; apply Fin.ext
    match a with
    | ⟨0, _⟩ => show win1_9.index t (0 : Fin 2) * 5000 + 1 * p.val = 5000 * t.val + p.val; rw [e0]; omega
    | ⟨1, _⟩ => show win1_9.index t (1 : Fin 2) * 10 + 1 * q.val = q.val; rw [e1]; omega
  show GraphHead.head 5000 _ _ _ _ _ _ _ _ _ (ix2 p q)
    = GraphHead.head 100000 _ _ _ _ _ _ _ _ _ (((cfg1.win 9).blk t).view.emb (ix2 p q))
  rw [hemb, GraphHead.head_apply, GraphHead.head_apply, block_row0 V c t p ⟨5000 * t.val + p.val, hP⟩ rfl,
    block_row1 V c t p ⟨5000 * t.val + p.val, hP⟩ rfl]

/-- An index of the output array is in point `t`'s block iff each coordinate is in the block's range on its axis. -/
theorem mem_block (t : Fin cfg1.N) (i : S100000x10.Idx) :
    i ∈ ((cfg1.win 9).blk t).view.set ↔ ∀ a : Fin 2, win1_9.index t a * S5000x10.size a ≤ (i a).val
      ∧ (i a).val < win1_9.index t a * S5000x10.size a + S5000x10.size a := by
  show i ∈ ((View.whole main_v47).slice (win1_9.rect t)).set ↔ _
  rw [View.set_slice_whole, Rect.mem_set_unit]
  exact Iff.rfl

/-- Every index of the output array is in the block of the point its row falls in, and every point writes back. -/
theorem covered (i : S100000x10.Idx) :
    ∃ t : Fin cfg1.N, (cfg1.win 9).flush t = true ∧ i ∈ ((cfg1.win 9).blk t).view.set := by
  have hi0 : (i 0).val < 100000 := (i 0).isLt
  have hi1 : (i 1).val < 10 := (i 1).isLt
  have hlt : (i 0).val / 5000 < 20 := by omega
  refine ⟨⟨(i 0).val / 5000, hlt⟩, flush1_9 _, ?_⟩
  rw [mem_block]
  obtain ⟨-, -, -, -, -, -, -, -, -, ⟨e0, e1⟩⟩ := index_facts ⟨(i 0).val / 5000, hlt⟩
  intro a
  match a with
  | ⟨0, _⟩ =>
    show win1_9.index ⟨(i 0).val / 5000, hlt⟩ (0 : Fin 2) * 5000 ≤ (i 0).val
      ∧ (i 0).val < win1_9.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win1_9.index ⟨(i 0).val / 5000, hlt⟩ (1 : Fin 2) * 10 ≤ (i 1).val
      ∧ (i 1).val < win1_9.index ⟨(i 0).val / 5000, hlt⟩ (1 : Fin 2) * 10 + 10
    rw [e1]
    omega

/-- After the region its output array is the head of the entry arrays, index by index. -/
theorem final (c : Dev nD) :
    (dat1 (F := Ideal) V c).arrAt 9 cfg1.N
      = GraphHead.head 100000 (V c main_v43) (V c main_v24) (V c main_arg5) (V c main_arg6) (V c main_v44)
          (V c main_arg8) (V c main_v45) (V c main_arg10) (V c main_v46) :=
  (dat1 (F := Ideal) V c).arrAt_eq_of_cover 9 _ (fun t _ => flushed_eq V c t) covered

end Cert.KernelIdeal.Value1

end
-- ==== Proof.RefValueA.lean ====
/-
  The reference program's first layer and second aggregation, read as the specification. The aggregated features
  `val_main_v22 x e` (gather the source rows, add them up at the destination rows, divide by the clamped in-degree)
  are kept as one function of a feature array and the edge list. The first layer's output is the graph-convolution
  layer of the aggregated and the node features: the host's two matrix products are plain sums over the shared
  axis, the bias vector is broadcast over the rows, the clamp is a maximum with zero. The second aggregation is the
  same function of the first layer's output: the program recomputes the wrapped source indices, the destination
  indices and the clamped in-degree from the same edge list.
-/
import proofs.«425800_j86053964743053_4_alg».proof.Proof.RefRead
import proofs.«425800_j86053964743053_4_alg».proof.Proof.Spec
import proofs.«425800_j86053964743053_4_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValueA

open Cert.ReferenceIdeal Cert.ReferenceIdeal.Gen Cert.ReferenceIdeal.ReadP Idealize.ShloMosaic Idealize.ShloMosaic.TcCoe Idealize.SL.Sem
open Idealize.ShloMosaic.ValueIdx

/-- The layer at an entry, written out: the two sums over the shared axis, the bias of the column, the clamp. -/
theorem sage_at (n : Nat) (a x : GraphHead.Mat n 64) (wl wr : GraphHead.Mat 64 64) (b : GraphHead.Mat 1 64) (p : Fin n) (q : Fin 64) :
    GraphHead.sage n a x wl wr b (ix2 p q)
      = max (((∑ k : Fin 64, a (ix2 p k) * wl (ix2 k q)) + (∑ k : Fin 64, x (ix2 p k) * wr (ix2 k q))) + b (ix2 0 q))
          GraphHead.floor0 := rfl

/-- The aggregated features times the first weight matrix, at an entry: the sum over the shared axis. -/
theorem dot_agg_at (x0 : (⟨S100000x64, .f32⟩ : BufTy).Contents (Elt Ideal)) (x1 : (⟨S2x1000000, .i32⟩ : BufTy).Contents (Elt Ideal))
    (x2 : (⟨S64x64, .f32⟩ : BufTy).Contents (Elt Ideal)) (p : Fin 100000) (q : Fin 64) :
    val_main_v23 (F := Ideal) x0 x1 x2 (ix2 p q)
      = ∑ k : Fin 64, val_main_v22 (F := Ideal) x0 x1 (ix2 p k) * x2 (ix2 k q) := by
  rw [val_main_v23_apply]
  generalize val_main_v22 (F := Ideal) x0 x1 = y
  refine Finset.sum_congr rfl fun k _ => ?_
  have el : lidx_main_v23 (ix2 p q) k = ix2 p k :=
    funext fun a => Fin.ext (by match a with | ⟨0, _⟩ => rfl | ⟨1, _⟩ => rfl)
  have er : ridx_main_v23 (ix2 p q) k = ix2 k q :=
    funext fun a => Fin.ext (by match a with | ⟨0, _⟩ => rfl | ⟨1, _⟩ => rfl)
  rw [el, er]

/-- The node features times the second weight matrix, at an entry. -/
theorem dot_self_at (x0 : (⟨S100000x64, .f32⟩ : BufTy).Contents (Elt Ideal)) (x3 : (⟨S64x64, .f32⟩ : BufTy).Contents (Elt Ideal))
    (p : Fin 100000) (q : Fin 64) :
    val_main_v24 (F := Ideal) x0 x3 (ix2 p q) = ∑ k : Fin 64, x0 (ix2 p k) * x3 (ix2 k q) := by
  rw [val_main_v24_apply]
  refine Finset.sum_congr rfl fun k _ => ?_
  have el : lidx_main_v24 (ix2 p q) k = ix2 p k :=
    funext fun a => Fin.ext (by match a with | ⟨0, _⟩ => rfl | ⟨1, _⟩ => rfl)
  have er : ridx_main_v24 (ix2 p q) k = ix2 k q :=
    funext fun a => Fin.ext (by match a with | ⟨0, _⟩ => rfl | ⟨1, _⟩ => rfl)
  rw [el, er]

/-- The bias vector repeated over the rows, at an entry: the bias of that column. -/
theorem bias_at (x4 : (⟨S64, .f32⟩ : BufTy).Contents (Elt Ideal)) (p : Fin 100000) (q : Fin 64) :
    val_main_v27 (F := Ideal) x4 (ix2 p q) = GraphHead.biasRow x4 (ix2 0 q) := by
  rw [val_main_v27_apply, val_main_v26_apply]
  show x4 _ = x4 (ix1 q)
  exact congrArg x4 (funext fun a => Fin.ext (by match a with | ⟨0, _⟩ => rfl))

/-- The clamp's floor repeated over the array, at an entry: the number the all-zero word denotes. -/
theorem floor_at (i : S100000x64.Idx) : val_main_call0_v0 (F := Ideal) i = GraphHead.floor0 := by
  rw [val_main_call0_v0_apply, val_main_call0_cst_apply]
  rfl

/-- The first layer's output is the layer of the aggregated features and the node features. -/
theorem layer1_eq (x0 : (⟨S100000x64, .f32⟩ : BufTy).Contents (Elt Ideal)) (x1 : (⟨S2x1000000, .i32⟩ : BufTy).Contents (Elt Ideal)) (x2 x3 : (⟨S64x64, .f32⟩ : BufTy).Contents (Elt Ideal)) (x4 : (⟨S64, .f32⟩ : BufTy).Contents (Elt Ideal)) :
    val_main_v29 (F := Ideal) x0 x1 x2 x3 x4
      = GraphHead.sage 100000 (val_main_v22 (F := Ideal) x0 x1) x0 x2 x3 (GraphHead.biasRow x4) := by
  funext i
  obtain ⟨p, q, rfl⟩ : ∃ (p : Fin 100000) (q : Fin 64), i = ix2 p q := ⟨i 0, i 1, eq_ix2 i⟩
  rw [val_main_v29_apply, val_main_v28_apply, val_main_v25_apply, dot_agg_at, dot_self_at, bias_at, floor_at]
  generalize val_main_v22 (F := Ideal) x0 x1 = y
  rw [Ideal.maximumf_def, Ideal.addf_def, Ideal.addf_def, sage_at]

/-- The second aggregation is the first one's function applied to the first layer's output. -/
theorem agg2_eq {F : FTy → Type} [FloatOps F] (x0 : (⟨S100000x64, .f32⟩ : BufTy).Contents (Elt F)) (x1 : (⟨S2x1000000, .i32⟩ : BufTy).Contents (Elt F)) (x2 x3 : (⟨S64x64, .f32⟩ : BufTy).Contents (Elt F)) (x4 : (⟨S64, .f32⟩ : BufTy).Contents (Elt F)) :
    val_main_v48 (F := F) x0 x1 x2 x3 x4 = val_main_v22 (F := F) (val_main_v29 (F := F) x0 x1 x2 x3 x4) x1 := by
  unfold val_main_v48 val_main_v39 val_main_v36
  generalize val_main_v29 (F := F) x0 x1 x2 x3 x4 = h
  unfold val_main_v22 val_main_v13 val_main_v10
  -- the second pass recomputes, from the same edge list, the zero array the sums start from, the destination
  -- indices, the wrapped source indices and the clamped in-degree: each is the first pass's term
  have e37 : val_main_v37 (F := F) = val_main_v11 (F := F) := rfl
  have e38 : val_main_v38 (F := F) x1 = val_main_v12 (F := F) x1 := rfl
  have e35 : val_main_v35 (F := F) x1 = val_main_v9 (F := F) x1 := rfl
  have e47 : val_main_v47 (F := F) x1 = val_main_v21 (F := F) x1 := rfl
  rw [e37, e38, e35, e47]

end Cert.ReferenceIdeal.RefValueA

end
-- ==== Proof.RefValueB.lean ====
/-
  The reference program's last stages, read as the specification: from the second aggregation `val_main_v48` and
  the first layer's output `val_main_v29` the program computes the second graph-convolution layer, a dense layer
  clamped at zero, a dense layer into the 10 classes and the log-softmax over the classes. The host's matrix
  products are plain sums over the shared axis; each bias vector is broadcast over the rows; the maximum over the
  classes is the fold of `max` from minus infinity (taken once more against minus infinity, which changes
  nothing); the sum of the exponentials is a plain sum from zero.
-/
import proofs.«425800_j86053964743053_4_alg».proof.Proof.RefRead
import proofs.«425800_j86053964743053_4_alg».proof.Proof.Spec
import proofs.«425800_j86053964743053_4_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValueB

open Cert.ReferenceIdeal Cert.ReferenceIdeal.Gen Cert.ReferenceIdeal.ReadP Idealize.ShloMosaic Idealize.ShloMosaic.TcCoe Idealize.SL.Sem
open Idealize.ShloMosaic.ValueIdx

/-! ### Index bookkeeping -/

/-- The index a reduction over the class axis inserts into row `p` is `(p, k)`. -/
theorem lift_row (h : S100000x10.Reduces [1] S100000) (p : Fin 100000) (k : Fin (S100000x10.size 1)) :
    h.lift (ix1 p) k = ix2 p (⟨k.val, k.isLt⟩ : Fin 10) := by
  funext c; apply Fin.ext
  fin_cases c <;> rfl

/-- Taking the maximum with minus infinity changes nothing. -/
theorem max_negInf (y : Ideal .f32) : max (Ideal.ofBits .f32 0xFF800000#32) y = y := by
  simp [Ideal.ofBits, Ideal.ieee]

/-! ### The stages of the program's tail, as functions of whole arrays -/

/-- A bias vector of 64 laid over the rows: first as one row, then over all rows. -/
def biasH64 (b : FVec Ideal S64 .f32) : FVec Ideal S100000x64 .f32 :=
  broadcastInDim S100000x64 ![0, 1] bcast_S1x64_S100000x64_0_1 (broadcastInDim S1x64 ![1] bcast_S64_S1x64_1 b)

/-- A bias vector of 10 laid over the rows. -/
def biasH10 (b : FVec Ideal S10 .f32) : FVec Ideal S100000x10 .f32 :=
  broadcastInDim S100000x10 ![0, 1] bcast_S1x10_S100000x10_0_1 (broadcastInDim S1x10 ![1] bcast_S10_S1x10_1 b)

/-- The zero word laid over a whole array of 64 columns. -/
def zerosH : FVec Ideal S100000x64 .f32 :=
  broadcastInDim S100000x64 ![] bcast_S_S100000x64 (constant (F := Ideal) S_ .f32 0x00000000#32)

/-- A graph-convolution layer on whole arrays: two products, the bias, the clamp at zero. -/
def layerH (A X : FVec Ideal S100000x64 .f32) (Wl Wr : FVec Ideal S64x64 .f32) (b : FVec Ideal S64 .f32) :
    FVec Ideal S100000x64 .f32 :=
  maximumf
    (addf
      (addf (Host.dotGeneral dot_S100000x64_S64x64_S100000x64_1_0_0_1_n_n none A Wl)
        (Host.dotGeneral dot_S100000x64_S64x64_S100000x64_1_0_0_1_n_n none X Wr))
      (biasH64 b))
    zerosH

/-- A dense layer with the clamp at zero on whole arrays. -/
def denseClampH (H : FVec Ideal S100000x64 .f32) (W : FVec Ideal S64x64 .f32) (b : FVec Ideal S64 .f32) :
    FVec Ideal S100000x64 .f32 :=
  maximumf (addf (Host.dotGeneral dot_S100000x64_S64x64_S100000x64_1_0_0_1_n_n none H W) (biasH64 b)) zerosH

/-- The dense layer into the 10 class scores on whole arrays. -/
def scoresH (H : FVec Ideal S100000x64 .f32) (W : FVec Ideal S64x10 .f32) (b : FVec Ideal S10 .f32) :
    FVec Ideal S100000x10 .f32 :=
  addf (Host.dotGeneral dot_S100000x64_S64x10_S100000x10_1_0_0_1_n_n none H W) (biasH10 b)

/-- Each row's maximum (taken once more against minus infinity), as a column spread over the 10 classes. -/
def rowMaxH (Z : FVec Ideal S100000x10 .f32) : FVec Ideal S100000x10 .f32 :=
  broadcastInDim S100000x10 ![0, 1] bcast_S100000x1_S100000x10_0_1
    (broadcastInDim S100000x1 ![0] bcast_S100000_S100000x1_0
      (maximumf
        (broadcastInDim S100000 ![] bcast_S_S100000 (constant (F := Ideal) S_ .f32 0xFF800000#32))
        (Host.reduce FloatOps.maximumf Z (constant (F := Ideal) S_ .f32 0xFF800000#32)
          reducesTo_S100000x10_S100000_d1 h_S_)))

/-- The logarithm of each row's sum from zero, as a column spread over the 10 classes. -/
def logSumH (E : FVec Ideal S100000x10 .f32) : FVec Ideal S100000x10 .f32 :=
  broadcastInDim S100000x10 ![0, 1] bcast_S100000x1_S100000x10_0_1
    (Host.log
      (broadcastInDim S100000x1 ![0] bcast_S100000_S100000x1_0
        (Host.reduceAdd E (constant (F := Ideal) S_ .f32 0x00000000#32) reducesTo_S100000x10_S100000_d1 h_S_)))

/-! ### Each stage at an entry -/

/-- The bias of 64 laid over the rows reads, at `(p, q)`, entry `q` of the vector. -/
theorem biasH64_apply (b : FVec Ideal S64 .f32) (p : Fin 100000) (q : Fin 64) :
    biasH64 b (ix2 p q) = GraphHead.biasRow b (ix2 (0 : Fin 1) q) := by
  unfold biasH64
  refine (broadcastInDim_apply _ bcast_S1x64_S100000x64_0_1 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])).trans ?_
  exact broadcastInDim_apply _ bcast_S64_S1x64_1 b (ix2 (0 : Fin 1) q) (ix1 q) (fun a => match a with
    | ⟨0, _⟩ => by show q.val = if (64 : Nat) = 1 then 0 else q.val; rw [if_neg (by decide)])

/-- The bias of 10 laid over the rows reads, at `(p, q)`, entry `q` of the vector. -/
theorem biasH10_apply (b : FVec Ideal S10 .f32) (p : Fin 100000) (q : Fin 10) :
    biasH10 b (ix2 p q) = GraphHead.biasRow b (ix2 (0 : Fin 1) q) := by
  unfold biasH10
  refine (broadcastInDim_apply _ bcast_S1x10_S100000x10_0_1 _ (ix2 p q) (ix2 (0 : Fin 1) q) (fun a => match a with
    | ⟨0, _⟩ => by show 0 = if (1 : Nat) = 1 then 0 else p.val; rw [if_pos rfl]
    | ⟨1, _⟩ => by show q.val = if (10 : Nat) = 1 then 0 else q.val; rw [if_neg (by decide)])).trans ?_
  exact broadcastInDim_apply _ bcast_S10_S1x10_1 b (ix2 (0 : Fin 1) q) (ix1 q) (fun a => match a with
    | ⟨0, _⟩ => by show q.val = if (10 : Nat) = 1 then 0 else q.val; rw [if_neg (by decide)])

/-- The zero word laid over an array reads the floor of the clamp everywhere. -/
theorem zerosH_apply (i : S100000x64.Idx) : zerosH i = GraphHead.floor0 := by
  unfold zerosH
  exact broadcastInDim_apply _ bcast_S_S100000x64 _ i (fun a => a.elim0) (fun a => a.elim0)

/-- The layer on whole arrays is the specification's layer. -/
theorem layerH_eq (A X : FVec Ideal S100000x64 .f32) (Wl Wr : FVec Ideal S64x64 .f32) (b : FVec Ideal S64 .f32) :
    layerH A X Wl Wr b = GraphHead.sage 100000 A X Wl Wr (GraphHead.biasRow b) := by
  funext i
  obtain ⟨p, q, rfl⟩ : ∃ (p : Fin 100000) (q : Fin 64), i = ix2 p q := ⟨i 0, i 1, eq_ix2 i⟩
  rw [GraphHead.sage_apply]
  unfold layerH
  exact congrArg₂ max
    (congrArg₂ (· + ·)
      (congrArg₂ (· + ·)
        (PlainDot.dotGeneral_apply dot_S100000x64_S64x64_S100000x64_1_0_0_1_n_n ⟨rfl, rfl, rfl, rfl, rfl, rfl⟩ none .single A Wl p q)
        (PlainDot.dotGeneral_apply dot_S100000x64_S64x64_S100000x64_1_0_0_1_n_n ⟨rfl, rfl, rfl, rfl, rfl, rfl⟩ none .single X Wr p q))
      (biasH64_apply b p q))
    (zerosH_apply (ix2 p q))

/-- The clamped dense layer at an entry: the row's dense layer, clamped at zero. -/
theorem denseClampH_apply (H : FVec Ideal S100000x64 .f32) (W : FVec Ideal S64x64 .f32) (b : FVec Ideal S64 .f32)
    (p : Fin 100000) (q : Fin 64) :
    denseClampH H W b (ix2 p q)
      = max (GraphHead.denseRow W (GraphHead.biasRow b) (GraphHead.row H p) q) GraphHead.floor0 := by
  unfold denseClampH
  exact congrArg₂ max
    (congrArg₂ (· + ·)
      (PlainDot.dotGeneral_apply dot_S100000x64_S64x64_S100000x64_1_0_0_1_n_n ⟨rfl, rfl, rfl, rfl, rfl, rfl⟩ none .single H W p q)
      (biasH64_apply b p q))
    (zerosH_apply (ix2 p q))

/-- The class scores at an entry: the row's dense layer into the classes. -/
theorem scoresH_apply (H : FVec Ideal S100000x64 .f32) (W : FVec Ideal S64x10 .f32) (b : FVec Ideal S10 .f32)
    (p : Fin 100000) (q : Fin 10) :
    scoresH H W b (ix2 p q) = GraphHead.denseRow W (GraphHead.biasRow b) (GraphHead.row H p) q := by
  unfold scoresH
  exact congrArg₂ (· + ·)
    (PlainDot.dotGeneral_apply dot_S100000x64_S64x10_S100000x10_1_0_0_1_n_n ⟨rfl, rfl, rfl, rfl, rfl, rfl⟩ none .single H W p q)
    (biasH10_apply b p q)

/-- The column of row maxima at an entry: the maximum of the entry's row, folded from minus infinity. -/
theorem rowMaxH_apply (Z : FVec Ideal S100000x10 .f32) (p : Fin 100000) (q : Fin 10) :
    rowMaxH Z (ix2 p q) = GraphHead.rowMax (GraphHead.row Z p) := by
  unfold rowMaxH
  refine (broadcastInDim_apply _ bcast_S100000x1_S100000x10_0_1 _ (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])).trans ?_
  refine (broadcastInDim_apply _ bcast_S100000_S100000x1_0 _ (ix2 p (0 : Fin 1)) (ix1 p) (fun a => match a with
    | ⟨0, _⟩ => by show p.val = if (100000 : Nat) = 1 then 0 else p.val; rw [if_neg (by decide)])).trans ?_
  have hc : broadcastInDim S100000 ![] bcast_S_S100000 (constant (F := Ideal) S_ .f32 0xFF800000#32) (ix1 p)
      = Ideal.ofBits .f32 0xFF800000#32 :=
    broadcastInDim_apply _ bcast_S_S100000 _ (ix1 p) (fun a => a.elim0) (fun a => a.elim0)
  have hr := Host.reduce_eq_fold_single (FloatOps.maximumf (F := Ideal) (φ := .f32)) Z
    (constant (F := Ideal) S_ .f32 0xFF800000#32) reducesTo_S100000x10_S100000_d1 (by decide) h_S_ (ix1 p)
  rw [maximumf_apply, hc, hr]
  refine (max_negInf _).trans ?_
  unfold GraphHead.rowMax
  refine congrArg (fun f => (Finset.univ : Finset (Fin 10)).fold max GraphHead.negInf f) ?_
  funext k
  exact congrArg Z (lift_row (by decide) p k)

/-- The host's logarithm acts entry by entry. -/
theorem hostLog_apply {s : Shape} (X : FVec Ideal s .f32) (i : s.Idx) : Host.log X i = Ideal.log (X i) := rfl

/-- The host's exponential acts entry by entry. -/
theorem hostExp_apply {s : Shape} (X : FVec Ideal s .f32) (i : s.Idx) : Host.exp X i = Ideal.exp (X i) := rfl

/-- The host's sum over the classes from the zero word, at row `p`: the plain sum over the row. -/
theorem hostSum_apply (E : FVec Ideal S100000x10 .f32) (p : Fin 100000) :
    Host.reduceAdd E (constant (F := Ideal) S_ .f32 0x00000000#32) reducesTo_S100000x10_S100000_d1 h_S_ (ix1 p)
      = ∑ k : Fin 10, E (ix2 p k) := by
  simp only [Host.reduceAdd, Ideal.hostReduceAdd_def]
  rw [Ideal.hostReduceAdd_single reducesTo_S100000x10_S100000_d1 (by decide)]
  show Ideal.ofBits .f32 0x00000000#32 + _ = _
  rw [Ideal.ofBits_zero_f32, zero_add]
  exact Finset.sum_congr rfl fun k _ => congrArg E (lift_row (by decide) p k)

/-- The column of logarithms of row sums at an entry: the logarithm of the sum over the entry's row. -/
theorem logSumH_apply (E : FVec Ideal S100000x10 .f32) (p : Fin 100000) (q : Fin 10) :
    logSumH E (ix2 p q) = Ideal.log (∑ k : Fin 10, E (ix2 p k)) := by
  unfold logSumH
  refine (broadcastInDim_apply _ bcast_S100000x1_S100000x10_0_1 _ (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])).trans ?_
  refine (hostLog_apply _ _).trans ?_
  refine congrArg Ideal.log ?_
  refine (broadcastInDim_apply _ bcast_S100000_S100000x1_0 _ (ix2 p (0 : Fin 1)) (ix1 p) (fun a => match a with
    | ⟨0, _⟩ => by show p.val = if (100000 : Nat) = 1 then 0 else p.val; rw [if_neg (by decide)])).trans ?_
  exact hostSum_apply E p

/-- The shifted scores at an entry. -/
theorem shiftedH_apply (Z : FVec Ideal S100000x10 .f32) (p : Fin 100000) (k : Fin 10) :
    subf Z (rowMaxH Z) (ix2 p k) = GraphHead.shifted (GraphHead.row Z p) k := by
  rw [subf_apply, rowMaxH_apply]
  rfl

/-- The exponentials of the shifted scores at an entry. -/
theorem expShiftedH_apply (Z : FVec Ideal S100000x10 .f32) (p : Fin 100000) (k : Fin 10) :
    Host.exp (subf Z (rowMaxH Z)) (ix2 p k) = Ideal.exp (GraphHead.shifted (GraphHead.row Z p) k) := by
  rw [hostExp_apply, shiftedH_apply]

/-- From the class scores on, the result at an entry is the log-softmax of the entry's row. -/
theorem logSoftmaxH_apply (Z : FVec Ideal S100000x10 .f32) (p : Fin 100000) (q : Fin 10) :
    subf (subf Z (rowMaxH Z)) (logSumH (Host.exp (subf Z (rowMaxH Z)))) (ix2 p q)
      = GraphHead.logSoftmaxRow (GraphHead.row Z p) q := by
  rw [subf_apply, logSumH_apply, shiftedH_apply]
  unfold GraphHead.logSoftmaxRow
  refine congrArg (fun s => GraphHead.shifted (GraphHead.row Z p) q - Ideal.log s) ?_
  exact Finset.sum_congr rfl fun k _ => expShiftedH_apply Z p k

/-! ### Rows of arrays given entry by entry -/

/-- A row of an array is the function its entries along the row give. -/
theorem row_ext {n c : Nat} (A : GraphHead.Mat n c) (p : Fin n) (v : Fin c → EReal) (h : ∀ k, A (ix2 p k) = v k) :
    GraphHead.row A p = v := funext h

/-- A row of the layer's output is the row function of the inputs' rows. -/
theorem sage_row (n : Nat) (a x : GraphHead.Mat n 64) (wl wr : GraphHead.Mat 64 64) (b : GraphHead.Mat 1 64) (p : Fin n) :
    GraphHead.row (GraphHead.sage n a x wl wr b) p = GraphHead.sageRow wl wr b (GraphHead.row a p) (GraphHead.row x p) := rfl

/-! ### The program's stages are these functions -/

/-- The second layer's output is the layer of the second aggregation and the first layer's output. -/
theorem stage_layer (x0 : (⟨S100000x64, .f32⟩ : BufTy).Contents (Elt Ideal)) (x1 : (⟨S2x1000000, .i32⟩ : BufTy).Contents (Elt Ideal)) (x2 x3 : (⟨S64x64, .f32⟩ : BufTy).Contents (Elt Ideal)) (x4 : (⟨S64, .f32⟩ : BufTy).Contents (Elt Ideal)) (x5 x6 : (⟨S64x64, .f32⟩ : BufTy).Contents (Elt Ideal)) (x7 : (⟨S64, .f32⟩ : BufTy).Contents (Elt Ideal)) :
    val_main_v55 (F := Ideal) x0 x1 x2 x3 x4 x5 x6 x7
      = layerH (val_main_v48 (F := Ideal) x0 x1 x2 x3 x4) (val_main_v29 (F := Ideal) x0 x1 x2 x3 x4) x5 x6 x7 := rfl

/-- The clamped dense layer of the second layer's output. -/
theorem stage_dense (x0 : (⟨S100000x64, .f32⟩ : BufTy).Contents (Elt Ideal)) (x1 : (⟨S2x1000000, .i32⟩ : BufTy).Contents (Elt Ideal)) (x2 x3 : (⟨S64x64, .f32⟩ : BufTy).Contents (Elt Ideal)) (x4 : (⟨S64, .f32⟩ : BufTy).Contents (Elt Ideal)) (x5 x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) :
    val_main_v60 (F := Ideal) x0 x1 x2 x3 x4 x5 x6 x7 x8 x9
      = denseClampH (val_main_v55 (F := Ideal) x0 x1 x2 x3 x4 x5 x6 x7) x8 x9 := rfl

/-- The class scores of the clamped dense layer's output. -/
theorem stage_scores (x0 : (⟨S100000x64, .f32⟩ : BufTy).Contents (Elt Ideal)) (x1 : (⟨S2x1000000, .i32⟩ : BufTy).Contents (Elt Ideal)) (x2 x3 : (⟨S64x64, .f32⟩ : BufTy).Contents (Elt Ideal)) (x4 : (⟨S64, .f32⟩ : BufTy).Contents (Elt Ideal)) (x5 x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x10, .f32⟩ : BufTy).Contents (Elt Ideal)) (x11 : (⟨S10, .f32⟩ : BufTy).Contents (Elt Ideal)) :
    val_main_v64 (F := Ideal) x0 x1 x2 x3 x4 x5 x6 x7 x8 x9 x10 x11
      = scoresH (val_main_v60 (F := Ideal) x0 x1 x2 x3 x4 x5 x6 x7 x8 x9) x10 x11 := rfl

/-- The result from the class scores: the shifted scores minus the logarithm of the sum of their exponentials. -/
theorem stage_result (x0 : (⟨S100000x64, .f32⟩ : BufTy).Contents (Elt Ideal)) (x1 : (⟨S2x1000000, .i32⟩ : BufTy).Contents (Elt Ideal)) (x2 x3 : (⟨S64x64, .f32⟩ : BufTy).Contents (Elt Ideal)) (x4 : (⟨S64, .f32⟩ : BufTy).Contents (Elt Ideal)) (x5 x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x10, .f32⟩ : BufTy).Contents (Elt Ideal)) (x11 : (⟨S10, .f32⟩ : BufTy).Contents (Elt Ideal)) :
    val_main_v65 (F := Ideal) x0 x1 x2 x3 x4 x5 x6 x7 x8 x9 x10 x11
      = subf
          (subf (val_main_v64 (F := Ideal) x0 x1 x2 x3 x4 x5 x6 x7 x8 x9 x10 x11)
            (rowMaxH (val_main_v64 (F := Ideal) x0 x1 x2 x3 x4 x5 x6 x7 x8 x9 x10 x11)))
          (logSumH (Host.exp
            (subf (val_main_v64 (F := Ideal) x0 x1 x2 x3 x4 x5 x6 x7 x8 x9 x10 x11)
              (rowMaxH (val_main_v64 (F := Ideal) x0 x1 x2 x3 x4 x5 x6 x7 x8 x9 x10 x11))))) := rfl

/-- The result is the head of the second aggregation and the first layer's output. -/
theorem head_eq (x0 : (⟨S100000x64, .f32⟩ : BufTy).Contents (Elt Ideal)) (x1 : (⟨S2x1000000, .i32⟩ : BufTy).Contents (Elt Ideal)) (x2 x3 : (⟨S64x64, .f32⟩ : BufTy).Contents (Elt Ideal)) (x4 : (⟨S64, .f32⟩ : BufTy).Contents (Elt Ideal)) (x5 x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x10, .f32⟩ : BufTy).Contents (Elt Ideal)) (x11 : (⟨S10, .f32⟩ : BufTy).Contents (Elt Ideal)) :
    val_main_v65 (F := Ideal) x0 x1 x2 x3 x4 x5 x6 x7 x8 x9 x10 x11
      = GraphHead.head 100000 (val_main_v48 (F := Ideal) x0 x1 x2 x3 x4) (val_main_v29 (F := Ideal) x0 x1 x2 x3 x4)
          x5 x6 (GraphHead.biasRow x7) x8 (GraphHead.biasRow x9) x10 (GraphHead.biasRow x11) := by
  funext i
  obtain ⟨p, q, rfl⟩ : ∃ (p : Fin 100000) (q : Fin 10), i = ix2 p q := ⟨i 0, i 1, eq_ix2 i⟩
  rw [stage_result, logSoftmaxH_apply, GraphHead.head_apply]
  unfold GraphHead.headRow
  refine congrArg (fun v => GraphHead.logSoftmaxRow v q) ?_
  refine row_ext _ p _ fun k => ?_
  rw [stage_scores, scoresH_apply]
  refine congrArg (fun v => GraphHead.denseRow x10 (GraphHead.biasRow x11) v k) ?_
  refine row_ext _ p _ fun j => ?_
  rw [stage_dense, denseClampH_apply, stage_layer, layerH_eq, sage_row]

end Cert.ReferenceIdeal.RefValueB

end
-- ==== Proof.lean ====
/-
  A two-layer graph convolution with a classifier head, computed by a kernel program and by a reference program, is
  the same function of the inputs over the extended reals.

  Both programs aggregate, for every node, the mean of the features over its incoming edges (gather the source rows,
  add them up at the destination rows, divide by the in-degree clamped below at one), apply a graph-convolution
  layer `max (a·Wl + x·Wr + b) 0`, aggregate the layer's output over the same edges, and apply the head: a second
  such layer, a dense layer clamped at zero, a dense layer into 10 classes and the log-softmax over the classes.
  The kernel program computes the two aggregations on the host and the rest in two regions of 20 grid points, each
  point handling 5000 consecutive node rows; the reference computes everything on the host, whole arrays at a time.
  Every stage after an aggregation acts on one row at a time, so the blocks a region writes are the blocks of the
  whole-array function and cover the array; the aggregation is literally the same chain of host operations in
  both programs and is never opened. At the exact values a matrix product is a plain sum over the shared axis in
  either program, a change of grouping that needs no finiteness, so the precondition is not used.

  The frames of the two kernel programs are the generated ones; the reference's frame is its run with the result
  dropped; the idealization rewrote no operation.
-/
import proofs.«425800_j86053964743053_4_alg».proof.Defs
import proofs.«425800_j86053964743053_4_alg».proof.Proof.Gen.Kernel
import proofs.«425800_j86053964743053_4_alg».proof.Proof.Gen.Kernel.Skeleton
import proofs.«425800_j86053964743053_4_alg».proof.Proof.Gen.Kernel.Launch
import proofs.«425800_j86053964743053_4_alg».proof.Proof.Gen.Kernel.Points
import proofs.«425800_j86053964743053_4_alg».proof.Proof.Gen.Kernel.Frame
import proofs.«425800_j86053964743053_4_alg».proof.Proof.Gen.KernelIdeal
import proofs.«425800_j86053964743053_4_alg».proof.Proof.Gen.KernelIdeal.Skeleton
import proofs.«425800_j86053964743053_4_alg».proof.Proof.Gen.KernelIdeal.Launch
import proofs.«425800_j86053964743053_4_alg».proof.Proof.Gen.KernelIdeal.Points
import proofs.«425800_j86053964743053_4_alg».proof.Proof.Gen.KernelIdeal.Frame
import proofs.«425800_j86053964743053_4_alg».proof.Proof.Gen.ReferenceIdeal
import proofs.«425800_j86053964743053_4_alg».proof.Proof.Gen.Pre_finite_inputs
import proofs.«425800_j86053964743053_4_alg».proof.Proof.KRun
import proofs.«425800_j86053964743053_4_alg».proof.Proof.KGlue
import proofs.«425800_j86053964743053_4_alg».proof.Proof.KValue0
import proofs.«425800_j86053964743053_4_alg».proof.Proof.KValue1
import proofs.«425800_j86053964743053_4_alg».proof.Proof.RefRun
import proofs.«425800_j86053964743053_4_alg».proof.Proof.RefRead
import proofs.«425800_j86053964743053_4_alg».proof.Proof.RefValueA
import proofs.«425800_j86053964743053_4_alg».proof.Proof.RefValueB
import Idealize.ShloMosaic.Adequacy
import Idealize.ShloMosaic.Init

noncomputable section

namespace Cert.Proof

open Idealize.ShloMosaic Idealize.SL.Sem

/-! ## The two programs' aggregation is one function -/

/-- The kernel program's host chain for the mean over incoming edges is the reference's, operation by operation. -/
theorem agg_eq {F : FTy → Type} [FloatOps F] (x : (⟨Cert.KernelIdeal.S100000x64, .f32⟩ : BufTy).Contents (Elt F))
    (e : (⟨Cert.KernelIdeal.S2x1000000, .i32⟩ : BufTy).Contents (Elt F)) :
    Cert.KernelIdeal.Glue.agg (F := F) x e = Cert.ReferenceIdeal.ReadP.val_main_v22 (F := F) x e := rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunP.run (F := Ideal) m ρ)

/-- The kernel program ends at `Glue.result` of its launch memory (the two regions' values through the host chain);
    the reference ends at its last stage, which read stage by stage is the same head of the same layer of the same
    aggregation of arguments that agree. -/
theorem algebraic : Cert.algebraic_KernelIdeal_ReferenceIdeal := by
  intro m ρ m' ρ' _ hagree
  refine ⟨fun c => Cert.KernelIdeal.Glue.result m c, ?_, ?_⟩
  · exact (θ_run Cert.KernelIdeal.defs _ _).mono
      (fun r h c => ⟨(h c).1.trans (Cert.KernelIdeal.Glue.result_eq m ρ Cert.KernelIdeal.Value0.final Cert.KernelIdeal.Value1.final c), (h c).2⟩)
      (Cert.KernelIdeal.GenRun.run_result (F := Ideal) m ρ)
  · refine (θ_run Cert.ReferenceIdeal.defs _ _).mono (fun r h c => ⟨(h c).1.trans ?_, (h c).2⟩)
      (Cert.ReferenceIdeal.RunP.run (F := Ideal) m' ρ')
    obtain ⟨a0, a1, a2, a3, a4, a5, a6, a7, a8, a9, a10, a11⟩ := hagree c
    rw [Cert.ReferenceIdeal.ReadP.val_main_v65_eq, a0, a1, a2, a3, a4, a5, a6, a7, a8, a9, a10, a11,
      Cert.ReferenceIdeal.RefValueB.head_eq, Cert.ReferenceIdeal.RefValueA.agg2_eq, Cert.ReferenceIdeal.RefValueA.layer1_eq,
      ← agg_eq, ← agg_eq]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
